-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288 : Shape := ⟨1, ![524288]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel

variable [Facts]

def fn {F : FTy → Type} [FloatOps F] (main_arg0 : FVec F S524288x128 .f32) (main_arg1 : IVec S524288 32) (main_arg2 : IVec S524288 32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  main_v3
-- ==== Kernel.lean ====
abbrev S524288x128 : Shape := ⟨2, ![524288, 128]⟩
abbrev S524288 : Shape := ⟨1, ![524288]⟩
abbrev S64x1x8192 : Shape := ⟨3, ![64, 1, 8192]⟩
abbrev S128x4096 : Shape := ⟨2, ![128, 4096]⟩
abbrev S1x4096 : Shape := ⟨2, ![1, 4096]⟩
abbrev S8192x128 : Shape := ⟨2, ![8192, 128]⟩
abbrev S1x1x8192 : Shape := ⟨3, ![1, 1, 8192]⟩
abbrev S128x2048 : Shape := ⟨2, ![128, 2048]⟩
abbrev S1x2048 : Shape := ⟨2, ![1, 2048]⟩
abbrev S1024x128 : Shape := ⟨2, ![1024, 128]⟩
abbrev S1x1x1024 : Shape := ⟨3, ![1, 1, 1024]⟩
abbrev S1x1024 : Shape := ⟨2, ![1, 1024]⟩
abbrev S1024x1 : Shape := ⟨2, ![1024, 1]⟩
abbrev S1024x2048 : Shape := ⟨2, ![1024, 2048]⟩
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S524288x1 : Shape := ⟨2, ![524288, 1]⟩

abbrev nBuf : Space → Nat
  | .hbm => 38
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S524288, .i32⟩
  | .hbm, ⟨3, _⟩ => ⟨S64x1x8192, .i32⟩
  | .hbm, ⟨4, _⟩ => ⟨S128x4096, .f32⟩
  | .hbm, ⟨5, _⟩ => ⟨S1x4096, .f32⟩
  | .hbm, ⟨6, _⟩ => ⟨S4096x128, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x1, .f32⟩
  | .hbm, ⟨12, _⟩ => ⟨S4096x128, .f32⟩
  | .hbm, ⟨13, _⟩ => ⟨S4096x128, .f32⟩
  | .hbm, ⟨14, _⟩ => ⟨S_, .i32⟩
  | .hbm, ⟨15, _⟩ => ⟨S4096, .i32⟩
  | .hbm, ⟨16, _⟩ => ⟨S524288, .i32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096, .i32⟩
  | .local _ .vmem, ⟨0, _⟩ => ⟨S8192x128, .f32⟩
  | .local _ .vmem, ⟨1, _⟩ => ⟨S8192x128, .f32⟩
  | .local _ .vmem, ⟨2, _⟩ => ⟨S1x1x8192, .i32⟩
  | .local _ .vmem, ⟨3, _⟩ => ⟨S1x1x8192, .i32⟩
  | .local _ .vmem, ⟨4, _⟩ => ⟨S128x2048, .f32⟩
  | .local _ .vmem, ⟨5, _⟩ => ⟨S1x2048, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_1 : BitVec 32 := 0#32
  let c8_i32 : BitVec 32 := 8#32
  let v7 : BitVec 32 := Scalar.addi c0_i32_1 c8_i32
  let c1_i32 : BitVec 32 := 1#32
  ⟨c0_i32_1, v7, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c1024_i32 : BitVec 32 := 1024#32
  let v8 : BitVec 32 := Scalar.muli arg6 c1024_i32
  v8
def k0_off1 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let c1024_i32 : BitVec 32 := 1024#32
  let v8 : BitVec 32 := Scalar.muli arg6 c1024_i32
  let v9 : BitVec 32 := v8
  let v10 : Index := Scalar.indexCast v9
  let c0 : Index := 0#32
  ![v10.toNat, 0]
def k0_off2 (k0_t1 : Fin k0_t1_loop.trips) : Fin 3 → Nat :=
  let c0_3 : Index := 0#32
  let c0_4 : Index := 0#32
  let c0_i32_1 : BitVec 32 := 0#32
  let c1_i32 : BitVec 32 := 1#32
  let arg6 : BitVec 32 := Scf.iv c0_i32_1 c1_i32 k0_t1
  let c1024_i32 : BitVec 32 := 1024#32
  let v8 : BitVec 32 := Scalar.muli arg6 c1024_i32
  let v9 : BitVec 32 := v8
  let v13 : Index := Scalar.indexCast v9
  ![0, 0, v13.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

class Facts₀ : Prop where
  shapeCasts_S524288_S64x1x8192 : S524288.ShapeCasts S64x1x8192
  inb_S128x2048_S128x2048_0_0 : ∀ a, (![0, 0] : Fin 2 → Nat) a + S128x2048.size a ≤ S128x2048.size a
  h_S128x2048 : 0 < S128x2048.numel
  inb_S1x2048_S1x2048_0_0 : ∀ a, (![0, 0] : Fin 2 → Nat) a + S1x2048.size a ≤ S1x2048.size a
  h_S1x2048 : 0 < S1x2048.numel
  iota_S1x2048_d1_w32 : S1x2048.Iotas .tc 32 [1]
  h_S1024x128 : 0 < S1024x128.numel
  bitsLt_bf16_f32 : FTy.bits .bf16 < FTy.bits .f32
  h_S1x1x1024 : 0 < S1x1x1024.numel
  shapeCasts_S1x1x1024_S1x1x1024 : S1x1x1024.ShapeCasts S1x1x1024
  shapeCasts_S1x1x1024_S1x1024 : S1x1x1024.ShapeCasts S1x1024
  transposes_S1x1024_p1_0_S1024x1 : S1x1024.Transposes [1, 0] S1024x1
  broadcasts_S1024x1_S1024x2048 : S1024x1.Broadcasts S1024x2048
  broadcasts_S1x2048_S1024x2048 : S1x2048.Broadcasts S1024x2048
  natLt_1_32 : 1 < 32
  shapeCasts_S128x2048_S128x2048 : S128x2048.ShapeCasts S128x2048
  shapeCasts_S1x2048_S1x2048 : S1x2048.ShapeCasts S1x2048
  transposes_S128x4096_S4096x128_1_0 : S128x4096.Transposes [1, 0] S4096x128
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S_S524288 : S_.BroadcastsInDim S524288 (![] : Fin 0 → Fin S524288.rank)
  bcast_S524288_S524288x1_0 : S524288.BroadcastsInDim S524288x1 (![0] : Fin 1 → Fin S524288x1.rank)
  dot_S1024x128_S1024x2048_S128x2048_0_0_1_1_n_n_wf : DotDims.WF S1024x128 S1024x2048 S128x2048 [0] [0] [1] [1] [] []
  dot_S1x1024_S1024x2048_S1x2048_1_0_0_1_n_n_wf : DotDims.WF S1x1024 S1024x2048 S1x2048 [1] [0] [0] [1] [] []
  scatter_S4096_S524288x1_S524288_n_0_0_1_wf : ScatterDims.WF S4096 S524288x1 S524288 [] [0] [0] 1
  gather_S524288_S4096x1_S4096_n_0_n_n_0_1_1_wf : GatherDims.WF S524288 S4096x1 S4096 [] [0] [] [0] [] 1 ![1]
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S8192x128.size a
  k0_off2_inb : ∀ k0_t1 : Fin k0_t1_loop.trips, ∀ a, (k0_off2 k0_t1) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S64x1x8192.size a
  hwx0_1 : ∀ i : grid0.Coords, EltTy.bits .i32 = 32 ∨ (Rect.block (s := S64x1x8192) S1x1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x4096.size a
  hwx0_2 : ∀ i : grid0.Coords, EltTy.bits .f32 = 32 ∨ (Rect.block (s := S128x4096) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)

variable [Facts₀]

def dot_S1024x128_S1024x2048_S128x2048_0_0_1_1_n_n : DotDims S1024x128 S1024x2048 S128x2048 where
  lhsContracting := [0]
  rhsContracting := [0]
  lhsNonContracting := [1]
  rhsNonContracting := [1]
  lhsBatch := []
  rhsBatch := []
  wf := dot_S1024x128_S1024x2048_S128x2048_0_0_1_1_n_n_wf
def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf
def scatter_S4096_S524288x1_S524288_n_0_0_1 : ScatterDims S4096 S524288x1 S524288 where
  updateWindowDims := []
  insertedWindowDims := [0]
  scatterDimsToOperandDims := [0]
  indexVectorDim := 1
  wf := scatter_S4096_S524288x1_S524288_n_0_0_1_wf
def gather_S524288_S4096x1_S4096_n_0_n_n_0_1_1 : GatherDims S524288 S4096x1 S4096 where
  offsetDims := []
  collapsedSliceDims := [0]
  operandBatchingDims := []
  startIndicesBatchingDims := []
  startIndexMap := [0]
  indexVectorDim := 1
  sliceSizes := ![1]
  wf := gather_S524288_S4096x1_S4096_n_0_n_n_0_1_1_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S128x2048.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S524288 : Shape := ⟨1, ![524288]⟩
abbrev S_ : Shape := ⟨0, ![]⟩
abbrev S4096x128 : Shape := ⟨2, ![4096, 128]⟩
abbrev S524288x1 : Shape := ⟨2, ![524288, 1]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S524288, .i32⟩
  | .hbm, ⟨3, _⟩ => ⟨S_, .f32⟩
  | .hbm, ⟨4, _⟩ => ⟨S4096x128, .f32⟩
  | .hbm, ⟨5, _⟩ => ⟨S524288x1, .i32⟩
  | .hbm, ⟨6, _⟩ => ⟨S4096x128, .f32⟩
  | .hbm, ⟨7, _⟩ => ⟨S_, .f32⟩
  | .hbm, ⟨8, _⟩ => ⟨S524288, .f32⟩
  | .hbm, ⟨9, _⟩ => ⟨S_, .f32⟩
  | .hbm, ⟨10, _⟩ => ⟨S4096, .f32⟩
  | .hbm, ⟨11, _⟩ => ⟨S524288x1, .i32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x128, .f32⟩
  | .hbm, ⟨18, _⟩ => ⟨S4096x128, .f32⟩
  | .hbm, ⟨19, _⟩ => ⟨S_, .i32⟩
  | .hbm, ⟨20, _⟩ => ⟨S4096, .i32⟩
  | .hbm, ⟨21, _⟩ => ⟨S524288, .i32⟩
  | .hbm, ⟨22, _⟩ => ⟨S_, .i32⟩
  | .hbm, ⟨23, _⟩ => ⟨S524288, .i32⟩
  | .hbm, ⟨24, _⟩ => ⟨S524288, .i1⟩
  | .hbm, ⟨25, _⟩ => ⟨S_, .i32⟩
  | .hbm, ⟨26, _⟩ => ⟨S524288, .i32⟩
  | .hbm, ⟨27, _⟩ => ⟨S524288, .i32⟩
  | .hbm, ⟨28, _⟩ => ⟨S524288, .i32⟩
  | .hbm, ⟨29, _⟩ => ⟨S524288x1, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096, .i32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  bcast_S524288_S524288x1_0 : S524288.BroadcastsInDim S524288x1 (![0] : Fin 1 → Fin S524288x1.rank)
  bcast_S_S524288 : S_.BroadcastsInDim S524288 (![] : Fin 0 → Fin S524288.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  scatter_S4096x128_S524288x1_S524288x128_1_0_0_1_wf : ScatterDims.WF S4096x128 S524288x1 S524288x128 [1] [0] [0] 1
  scatter_S4096_S524288x1_S524288_n_0_0_1_wf : ScatterDims.WF S4096 S524288x1 S524288 [] [0] [0] 1
  gather_S524288_S4096x1_S4096_n_0_n_n_0_1_1_wf : GatherDims.WF S524288 S4096x1 S4096 [] [0] [] [0] [] 1 ![1]

variable [Facts₀]

def scatter_S4096x128_S524288x1_S524288x128_1_0_0_1 : ScatterDims S4096x128 S524288x1 S524288x128 where
  updateWindowDims := [1]
  insertedWindowDims := [0]
  scatterDimsToOperandDims := [0]
  indexVectorDim := 1
  wf := scatter_S4096x128_S524288x1_S524288x128_1_0_0_1_wf
def scatter_S4096_S524288x1_S524288_n_0_0_1 : ScatterDims S4096 S524288x1 S524288 where
  updateWindowDims := []
  insertedWindowDims := [0]
  scatterDimsToOperandDims := [0]
  indexVectorDim := 1
  wf := scatter_S4096_S524288x1_S524288_n_0_0_1_wf
def gather_S524288_S4096x1_S4096_n_0_n_n_0_1_1 : GatherDims S524288 S4096x1 S4096 where
  offsetDims := []
  collapsedSliceDims := [0]
  operandBatchingDims := []
  startIndicesBatchingDims := []
  startIndexMap := [0]
  indexVectorDim := 1
  sliceSizes := ![1]
  wf := gather_S524288_S4096x1_S4096_n_0_n_n_0_1_1_wf

class Facts : Prop extends Facts₀ where

variable [Facts]
-- ==== Proof.K.Cases.lean ====
/-
  The grid is 2 x 64: coordinate 0 picks a block of 2048 channels, coordinate 1 a block of 8192 rows. The body
  zeroes both accumulator blocks exactly when coordinate 1 is 0, that is at the points 0 and 64 of the row-major
  order, and adds eight chunks of 1024 rows at every point. Here: that condition in closed form over the grid, and
  the staging memrefs the body is called with.
-/
import proofs.«421653_j48661979464237_3_alg».proof.Proof.Gen.Kernel.Frame
import proofs.«421653_j48661979464237_3_alg».proof.Proof.Gen.Kernel.Skeleton
import proofs.«421653_j48661979464237_3_alg».proof.Proof.Gen.Kernel.Loops

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one conditional: grid coordinate 1 is zero. -/
abbrev cond0_0 (i : grid0.Coords) : Prop := (Scalar.cmpi .ne (Scalar.extui (Scalar.cmpi .eq (BitVec.ofNat 32 (i 1).val) 0#32)) 0#32) = 1#1
/-- It holds exactly at the points that are multiples of 64. -/
theorem hcond0_0 : ∀ t : Fin cfg0.N, cond0_0 (grid0.coords t) ↔ t.val % 64 = 0 :=
  (by decide +kernel : ∀ t : Fin grid0.N, cond0_0 (grid0.coords t) ↔ t.val % 64 = 0)

/-- Each window's current staging memref at point `t`, and that it is whole. -/
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x8192 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)

end Cert.Kernel.Gen

end
-- ==== Proof.K.RunA.lean ====
/-
  The body at a point where grid coordinate 1 is zero: both accumulator blocks are stored whole with zeros, then the
  eight chunks are added. What each accumulator's staging memref holds afterwards is given as the list of stores
  made into it (last first), found by running the body.
-/
import proofs.«421653_j48661979464237_3_alg».proof.Proof.K.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores into the two accumulator blocks at a resetting point, with the body's triple: the inputs at their
    contents, the accumulators at anything, handed back with those stores written. -/
noncomputable def kernelRun0_A (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) :
    Σ' (L2 : List (View.Piece (Elt F) S128x2048 .f32)), { L3 : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__agg_kernel i arg2 harg2 arg3 harg3 arg4 harg4 arg5 harg5) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Gen

end
-- ==== Proof.K.RunB.lean ====
/-
  The body at a point where grid coordinate 1 is not zero: nothing is reset; the eight chunks are added to what the
  accumulator blocks hold, which is what the point before left there. The stores made into each accumulator's
  staging memref (last first) are found by running the body, as functions of those carried contents.
-/
import proofs.«421653_j48661979464237_3_alg».proof.Proof.K.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores into the two accumulator blocks at a non-resetting point, with the body's triple: the inputs at
    their contents, the accumulators at the carried contents `xo2`, `xo3`, handed back with those stores written. -/
noncomputable def kernelRun0_B (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) :
    Σ' (L2 : List (View.Piece (Elt F) S128x2048 .f32)), { L3 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__agg_kernel i arg2 harg2 arg3 harg3 arg4 harg4 arg5 harg5) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Gen

end
-- ==== Proof.K.Frame.lean ====
/-
  The accumulators point by point. The two result blocks of a channel block stay in their staging memrefs over the
  64 points of a channel block and are written back after the last of them. After a resetting point they hold what
  that point's stores leave over anything; after any other point what its stores leave over what the point before
  left. With this as the pipeline's proof data the body meets its obligation at every point, and the launch theorem
  gives the program's run with every array of the pipeline named.
-/
import proofs.«421653_j48661979464237_3_alg».proof.Proof.K.RunA
import proofs.«421653_j48661979464237_3_alg».proof.Proof.K.RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each accumulator window, through which its contents are stated. -/
abbrev VO0_2 : View sig .tc .vmem S128x2048 .f32 := (Memref.whole cc0_stg2_0 : Memref sig .tc .vmem S128x2048 .f32).view
abbrev VO0_3 : View sig .tc .vmem S1x2048 .f32 := (Memref.whole cc0_stg3_0 : Memref sig .tc .vmem S1x2048 .f32).view

/-- The stores of a resetting point cover the feature-sum block, -/
theorem cover0_A_2 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) (y : S128x2048.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S128x2048.size (by sl_kernel_rfl) y
/-- and the count block. -/
theorem cover0_A_3 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) (y : S1x2048.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x2048.size (by sl_kernel_rfl) y

/-- What a resetting point leaves in the feature-sum block: its stores read back over junk. -/
def out0_A_2 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) : Vec F S128x2048 .f32 :=
  VO0_2.read (Elt F) (VO0_2.writes (Elt F) VO0_2.junk (kernelRun0_A c i arg2 harg2 arg3 harg3 arg4 harg4 arg5 harg5 hc0 x0 x1).1)
/-- What a resetting point leaves in the count block. -/
def out0_A_3 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) : Vec F S1x2048 .f32 :=
  VO0_3.read (Elt F) (VO0_3.writes (Elt F) VO0_3.junk (kernelRun0_A c i arg2 harg2 arg3 harg3 arg4 harg4 arg5 harg5 hc0 x0 x1).2.1)

/-- The stores of a non-resetting point cover the feature-sum block, -/
theorem cover0_B_2 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) (y : S128x2048.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S128x2048.size (by sl_kernel_rfl) y
/-- and the count block. -/
theorem cover0_B_3 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) (y : S1x2048.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x2048.size (by sl_kernel_rfl) y

/-- What a non-resetting point leaves in the feature-sum block, over the carried contents. -/
def out0_B_2 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) : Vec F S128x2048 .f32 :=
  VO0_2.read (Elt F) (VO0_2.writes (Elt F) VO0_2.junk (kernelRun0_B c i arg2 harg2 arg3 harg3 arg4 harg4 arg5 harg5 hc0 x0 x1 xo2 xo3).1)
/-- What a non-resetting point leaves in the count block, over the carried contents. -/
def out0_B_3 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) : Vec F S1x2048 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- The two accumulator blocks after the body at position `n` of the grid's row-major order: reset and filled at
    the multiples of 64, else the point's stores over what position `n - 1` left. -/
def outsAt0 (c : Dev nD) : (n : ℕ) → n < cfg0.N → Vec F S128x2048 .f32 × Vec F S1x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a resetting point: that case's contents. -/
theorem outsAt0_A (c : Dev nD) (t : Fin cfg0.N) (h0 : t.val % 64 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At any other point: that case's contents over what the point before left. -/
theorem outsAt0_B (c : Dev nD) (t : Fin cfg0.N) (h0 : ¬t.val % 64 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input's buffer at its
    block and the accumulators at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a non-resetting point an accumulator's buffer holds what the body left at the point before: the point is not
    the first and the buffer is written back only after the points that are 63 modulo 64. -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form says which case the point is in;
    at a non-resetting point the accumulators hold what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 128 := lt_of_lt_of_eq t.isLt (show cfg0.N = 128 from N_0)
  by_cases h0 : t.val % 64 = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has every array of the pipeline at what the proof data gives and the host lines after the region run
    over them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its three argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Gen

end
-- ==== Proof.KI.Cases.lean ====
/-
  The grid is 2 x 64: coordinate 0 picks a block of 2048 channels, coordinate 1 a block of 8192 rows. The body
  zeroes both accumulator blocks exactly when coordinate 1 is 0, that is at the points 0 and 64 of the row-major
  order, and adds eight chunks of 1024 rows at every point. Here: that condition in closed form over the grid, and
  the staging memrefs the body is called with.
-/
import proofs.«421653_j48661979464237_3_alg».proof.Proof.Gen.KernelIdeal.Frame
import proofs.«421653_j48661979464237_3_alg».proof.Proof.Gen.KernelIdeal.Skeleton
import proofs.«421653_j48661979464237_3_alg».proof.Proof.Gen.KernelIdeal.Loops

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one conditional: grid coordinate 1 is zero. -/
abbrev cond0_0 (i : grid0.Coords) : Prop := (Scalar.cmpi .ne (Scalar.extui (Scalar.cmpi .eq (BitVec.ofNat 32 (i 1).val) 0#32)) 0#32) = 1#1
/-- It holds exactly at the points that are multiples of 64. -/
theorem hcond0_0 : ∀ t : Fin cfg0.N, cond0_0 (grid0.coords t) ↔ t.val % 64 = 0 :=
  (by decide +kernel : ∀ t : Fin grid0.N, cond0_0 (grid0.coords t) ↔ t.val % 64 = 0)

/-- Each window's current staging memref at point `t`, and that it is whole. -/
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x8192 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)

end Cert.KernelIdeal.Gen

end
-- ==== Proof.KI.RunA.lean ====
/-
  The body at a point where grid coordinate 1 is zero: both accumulator blocks are stored whole with zeros, then the
  eight chunks are added. What each accumulator's staging memref holds afterwards is given as the list of stores
  made into it (last first), found by running the body.
-/
import proofs.«421653_j48661979464237_3_alg».proof.Proof.KI.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores into the two accumulator blocks at a resetting point, with the body's triple: the inputs at their
    contents, the accumulators at anything, handed back with those stores written. -/
noncomputable def kernelRun0_A (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) :
    Σ' (L2 : List (View.Piece (Elt F) S128x2048 .f32)), { L3 : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__agg_kernel i arg2 harg2 arg3 harg3 arg4 harg4 arg5 harg5) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Gen

end
-- ==== Proof.KI.RunB.lean ====
/-
  The body at a point where grid coordinate 1 is not zero: nothing is reset; the eight chunks are added to what the
  accumulator blocks hold, which is what the point before left there. The stores made into each accumulator's
  staging memref (last first) are found by running the body, as functions of those carried contents.
-/
import proofs.«421653_j48661979464237_3_alg».proof.Proof.KI.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores into the two accumulator blocks at a non-resetting point, with the body's triple: the inputs at
    their contents, the accumulators at the carried contents `xo2`, `xo3`, handed back with those stores written. -/
noncomputable def kernelRun0_B (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) :
    Σ' (L2 : List (View.Piece (Elt F) S128x2048 .f32)), { L3 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__agg_kernel i arg2 harg2 arg3 harg3 arg4 harg4 arg5 harg5) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Gen

end
-- ==== Proof.KI.Frame.lean ====
/-
  The accumulators point by point. The two result blocks of a channel block stay in their staging memrefs over the
  64 points of a channel block and are written back after the last of them. After a resetting point they hold what
  that point's stores leave over anything; after any other point what its stores leave over what the point before
  left. With this as the pipeline's proof data the body meets its obligation at every point, and the launch theorem
  gives the program's run with every array of the pipeline named.
-/
import proofs.«421653_j48661979464237_3_alg».proof.Proof.KI.RunA
import proofs.«421653_j48661979464237_3_alg».proof.Proof.KI.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each accumulator window, through which its contents are stated. -/
abbrev VO0_2 : View sig .tc .vmem S128x2048 .f32 := (Memref.whole cc0_stg2_0 : Memref sig .tc .vmem S128x2048 .f32).view
abbrev VO0_3 : View sig .tc .vmem S1x2048 .f32 := (Memref.whole cc0_stg3_0 : Memref sig .tc .vmem S1x2048 .f32).view

/-- The stores of a resetting point cover the feature-sum block, -/
theorem cover0_A_2 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) (y : S128x2048.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S128x2048.size (by sl_kernel_rfl) y
/-- and the count block. -/
theorem cover0_A_3 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) (y : S1x2048.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x2048.size (by sl_kernel_rfl) y

/-- What a resetting point leaves in the feature-sum block: its stores read back over junk. -/
def out0_A_2 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) : Vec F S128x2048 .f32 :=
  VO0_2.read (Elt F) (VO0_2.writes (Elt F) VO0_2.junk (kernelRun0_A c i arg2 harg2 arg3 harg3 arg4 harg4 arg5 harg5 hc0 x0 x1).1)
/-- What a resetting point leaves in the count block. -/
def out0_A_3 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) : Vec F S1x2048 .f32 :=
  VO0_3.read (Elt F) (VO0_3.writes (Elt F) VO0_3.junk (kernelRun0_A c i arg2 harg2 arg3 harg3 arg4 harg4 arg5 harg5 hc0 x0 x1).2.1)

/-- The stores of a non-resetting point cover the feature-sum block, -/
theorem cover0_B_2 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) (y : S128x2048.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S128x2048.size (by sl_kernel_rfl) y
/-- and the count block. -/
theorem cover0_B_3 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) (y : S1x2048.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x2048.size (by sl_kernel_rfl) y

/-- What a non-resetting point leaves in the feature-sum block, over the carried contents. -/
def out0_B_2 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) : Vec F S128x2048 .f32 :=
  VO0_2.read (Elt F) (VO0_2.writes (Elt F) VO0_2.junk (kernelRun0_B c i arg2 harg2 arg3 harg3 arg4 harg4 arg5 harg5 hc0 x0 x1 xo2 xo3).1)
/-- What a non-resetting point leaves in the count block, over the carried contents. -/
def out0_B_3 (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) : Vec F S1x2048 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- The two accumulator blocks after the body at position `n` of the grid's row-major order: reset and filled at
    the multiples of 64, else the point's stores over what position `n - 1` left. -/
def outsAt0 (c : Dev nD) : (n : ℕ) → n < cfg0.N → Vec F S128x2048 .f32 × Vec F S1x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a resetting point: that case's contents. -/
theorem outsAt0_A (c : Dev nD) (t : Fin cfg0.N) (h0 : t.val % 64 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At any other point: that case's contents over what the point before left. -/
theorem outsAt0_B (c : Dev nD) (t : Fin cfg0.N) (h0 : ¬t.val % 64 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input's buffer at its
    block and the accumulators at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a non-resetting point an accumulator's buffer holds what the body left at the point before: the point is not
    the first and the buffer is written back only after the points that are 63 modulo 64. -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form says which case the point is in;
    at a non-resetting point the accumulators hold what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 128 := lt_of_lt_of_eq t.isLt (show cfg0.N = 128 from N_0)
  by_cases h0 : t.val % 64 = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has every array of the pipeline at what the proof data gives and the host lines after the region run
    over them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its three argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Gen

end
-- ==== Proof.KI.Loop.lean ====
/-
  The eight chunks as a fold. One trip of the body's loop loads chunk k of the row block and of the id block, loads
  each accumulator block whole, and stores each back whole with the chunk's contribution added: so reading an
  accumulator after the trips before n is the n-fold application of the two chunk steps to what it held at loop
  entry. A resetting point starts the fold from the zero blocks, any other point from the carried contents.
-/
import proofs.«421653_j48661979464237_3_alg».proof.Proof.KI.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- One trip's stores: one whole-block piece per accumulator, its value the payload of the chunk's loads and of the
    accumulator as loaded. -/
theorem tripL_eq (𝒱 : Variants) (bd : Option 𝒱.V) (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole)
    (X_arg2 : BufTy.Contents (Elt F) arg2.view.ty) (X_arg3 : BufTy.Contents (Elt F) arg3.view.ty) (k : Fin k0_t1_loop.trips)
    (f_arg4 : BufTy.Contents (Elt F) arg4.view.ty) (f_arg5 : BufTy.Contents (Elt F) arg5.view.ty) :
    tripL_k0_t1 (F := F) 𝒱 c bd i arg2 harg2 arg3 harg3 arg4 harg4 arg5 harg5 X_arg2 X_arg3 k f_arg4 f_arg5
      = ([⟨(Rect.unit (s := S128x2048) ![0, 0] S128x2048.size inb_S128x2048_S128x2048_0_0), k0_pay4 i (View.readAt (Elt F) arg2.view (Rect.unit (s := S8192x128) (k0_off1 k) S1024x128.size (k0_off1_inb k)).toLoadRect X_arg2) (View.readAt (Elt F) arg3.view (Rect.unit (s := S1x1x8192) (k0_off2 k) S1x1x1024.size (k0_off2_inb k)).toLoadRect X_arg3) (View.readAt (Elt F) arg4.view (Rect.unit (s := S128x2048) ![0, 0] S128x2048.size inb_S128x2048_S128x2048_0_0).toLoadRect f_arg4)⟩],
         [⟨(Rect.unit (s := S1x2048) ![0, 0] S1x2048.size inb_S1x2048_S1x2048_0_0), k0_pay5 i (View.readAt (Elt F) arg3.view (Rect.unit (s := S1x1x8192) (k0_off2 k) S1x1x1024.size (k0_off2_inb k)).toLoadRect X_arg3) (View.readAt (Elt F) arg5.view (Rect.unit (s := S1x2048) ![0, 0] S1x2048.size inb_S1x2048_S1x2048_0_0).toLoadRect f_arg5)⟩]) := by
  unfold tripL_k0_t1 trip_k0_t1
  rfl

/-- Chunk `k`'s step on the feature-sum block: the payload of the chunk's rows and ids and the block so far. -/
def step2 (i : grid0.Coords) (x0 : Vec F S8192x128 .f32) (x1 : Vec F S1x1x8192 .i32) (k : Fin k0_t1_loop.trips)
    (a : Vec F S128x2048 .f32) : Vec F S128x2048 .f32 :=
  k0_pay4 i (View.ld x0 (Rect.unit (s := S8192x128) (k0_off1 k) S1024x128.size (k0_off1_inb k))) (View.ld x1 (Rect.unit (s := S1x1x8192) (k0_off2 k) S1x1x1024.size (k0_off2_inb k))) a
/-- Chunk `k`'s step on the count block. -/
def step3 (i : grid0.Coords) (x1 : Vec F S1x1x8192 .i32) (k : Fin k0_t1_loop.trips)
    (a : Vec F S1x2048 .f32) : Vec F S1x2048 .f32 :=
  k0_pay5 i (View.ld x1 (Rect.unit (s := S1x1x8192) (k0_off2 k) S1x1x1024.size (k0_off2_inb k))) a

/-- The two accumulator blocks after the trips before `n`, from `a` at loop entry. -/
def loopAcc (i : grid0.Coords) (x0 : Vec F S8192x128 .f32) (x1 : Vec F S1x1x8192 .i32) :
    ℕ → Vec F S128x2048 .f32 × Vec F S1x2048 .f32 → Vec F S128x2048 .f32 × Vec F S1x2048 .f32
  | 0, a => a
  | n + 1, a => if h : n < k0_t1_loop.trips then
      (step2 i x0 x1 ⟨n, h⟩ (loopAcc i x0 x1 n a).1, step3 i x1 ⟨n, h⟩ (loopAcc i x0 x1 n a).2)
    else loopAcc i x0 x1 n a

/-- A store through the whole block made last is what the buffer reads, whatever was stored before. -/
theorem read_cons_unit_zero {S : Shape} {e : EltTy} {sg : RefSig} {κ : Kind} {sp : Space} (v : View sg κ sp S e)
    (g : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) g ((⟨Rect.unit off S.size inb, w⟩ : View.Piece (Elt F) S e) :: L)) = w :=
  (View.read_writes_eq_canon v g _ (fun y => ⟨_, List.mem_cons_self, View.mem_set_unit_zero h inb y⟩)).trans
    (View.canon_cons_unit_zero h inb w L)

/-- Reading the accumulators after the trips before `n` gives the fold of the chunk steps over what they held at
    loop entry. -/
theorem read_pb (𝒱 : Variants) (bd : Option 𝒱.V) (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole)
    (x0 : Vec F S8192x128 .f32) (x1 : Vec F S1x1x8192 .i32)
    (G4 : BufTy.Contents (Elt F) arg4.view.ty) (G5 : BufTy.Contents (Elt F) arg5.view.ty) : ∀ n : ℕ,
    (arg4.view.read (Elt F) (arg4.view.writes (Elt F) G4 (pb_k0_t1 (F := F) 𝒱 c bd i arg2 harg2 arg3 harg3 arg4 harg4 arg5 harg5 (harg2.unread x0) (harg3.unread x1) G4 G5 n).1),
      arg5.view.read (Elt F) (arg5.view.writes (Elt F) G5 (pb_k0_t1 (F := F) 𝒱 c bd i arg2 harg2 arg3 harg3 arg4 harg4 arg5 harg5 (harg2.unread x0) (harg3.unread x1) G4 G5 n).2))
      = loopAcc i x0 x1 n (arg4.view.read (Elt F) G4, arg5.view.read (Elt F) G5)
  | 0 => rfl
  | n + 1 => by
    have ih := read_pb 𝒱 bd c i arg2 harg2 arg3 harg3 arg4 harg4 arg5 harg5 x0 x1 G4 G5 n
    rw [pb_k0_t1.eq_2]
    unfold pb_k0_t1Step
    rw [loopAcc]
    by_cases h : n < k0_t1_loop.trips
    · rw [dif_pos h, dif_pos h, tripL_eq]
      dsimp only [List.cons_append, List.nil_append]
      rw [read_cons_unit_zero (S := S128x2048) arg4.view _ hz2, read_cons_unit_zero (S := S1x2048) arg5.view _ hz2, ← ih]
      dsimp only
      unfold step2 step3
      simp only [View.readAt_eq_ld, harg2.read_unread, harg3.read_unread,
        View.ld_unit_zero (S := S128x2048) hz2, View.ld_unit_zero (S := S1x2048) hz2]
    · rw [dif_neg h, dif_neg h]
      exact ih

/-- What a non-resetting point leaves: the fold of the chunk steps over the carried contents. -/
theorem outB_eq (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : ¬cond0_0 i)
    (x0 : Vec F S8192x128 .f32) (x1 : Vec F S1x1x8192 .i32) (xo2 : Vec F S128x2048 .f32) (xo3 : Vec F S1x2048 .f32) :
    (out0_B_2 c i arg2 harg2 arg3 harg3 arg4 harg4 arg5 harg5 hc0 x0 x1 xo2 xo3, out0_B_3 c i arg2 harg2 arg3 harg3 arg4 harg4 arg5 harg5 hc0 x0 x1 xo2 xo3)
      = loopAcc i x0 x1 k0_t1_loop.trips (xo2, xo3) := by
  unfold out0_B_2 out0_B_3
  rw [View.read_writes_of_cover VO0_2 VO0_2.junk arg4.view (harg4.unread xo2) _ (cover0_B_2 c i arg2 harg2 arg3 harg3 arg4 harg4 arg5 harg5 hc0 x0 x1 xo2 xo3),
    View.read_writes_of_cover VO0_3 VO0_3.junk arg5.view (harg5.unread xo3) _ (cover0_B_3 c i arg2 harg2 arg3 harg3 arg4 harg4 arg5 harg5 hc0 x0 x1 xo2 xo3)]
  unfold kernelRun0_B
  dsimp only
  have h := read_pb Variants.none none c i arg2 harg2 arg3 harg3 arg4 harg4 arg5 harg5 x0 x1 (harg4.unread xo2) (harg5.unread xo3) k0_t1_loop.trips
  rw [harg4.read_unread, harg5.read_unread] at h
  exact h

/-- What a resetting point leaves: the fold of the chunk steps over the zero blocks. -/
theorem outA_eq (c : Dev nD) (i : grid0.Coords) (arg2 : Memref sig .tc .vmem S8192x128 .f32) (harg2 : arg2.IsWhole) (arg3 : Memref sig .tc .vmem S1x1x8192 .i32) (harg3 : arg3.IsWhole) (arg4 : Memref sig .tc .vmem S128x2048 .f32) (harg4 : arg4.IsWhole) (arg5 : Memref sig .tc .vmem S1x2048 .f32) (harg5 : arg5.IsWhole) (hc0 : cond0_0 i)
    (x0 : Vec F S8192x128 .f32) (x1 : Vec F S1x1x8192 .i32) :
    (out0_A_2 c i arg2 harg2 arg3 harg3 arg4 harg4 arg5 harg5 hc0 x0 x1, out0_A_3 c i arg2 harg2 arg3 harg3 arg4 harg4 arg5 harg5 hc0 x0 x1)
      = loopAcc i x0 x1 k0_t1_loop.trips (k0_pay1 (F := F), k0_pay2 (F := F)) := by
  unfold out0_A_2 out0_A_3
  rw [View.read_writes_of_cover VO0_2 VO0_2.junk arg4.view arg4.view.junk _ (cover0_A_2 c i arg2 harg2 arg3 harg3 arg4 harg4 arg5 harg5 hc0 x0 x1),
    View.read_writes_of_cover VO0_3 VO0_3.junk arg5.view arg5.view.junk _ (cover0_A_3 c i arg2 harg2 arg3 harg3 arg4 harg4 arg5 harg5 hc0 x0 x1)]
  unfold kernelRun0_A
  dsimp only
  rw [View.writes_append, View.writes_append]
  have h := read_pb Variants.none none c i arg2 harg2 arg3 harg3 arg4 harg4 arg5 harg5 x0 x1 (arg4.view.writes (Elt F) arg4.view.junk kernelRun0_A.sl.H2_1) (arg5.view.writes (Elt F) arg5.view.junk kernelRun0_A.sl.H3_1) k0_t1_loop.trips
  refine h.trans (congrArg (loopAcc i x0 x1 k0_t1_loop.trips) ?_)
  sl_unfold_words
  rw [read_cons_unit_zero (S := S128x2048) arg4.view _ hz2, read_cons_unit_zero (S := S1x2048) arg5.view _ hz2]

end Cert.KernelIdeal.Gen

end
-- ==== Proof.Spec.lean ====
/-
  The channel aggregate as sums over the rows. For a 32-bit channel id `w` and a channel number `col`, `oh w col` is
  1 when `w` is that channel and 0 otherwise. The feature sum of channel `col` at feature `d` is the sum over all
  524288 rows `b` of z[b, d] * oh(ch[b], col), and the count of channel `col` the sum of oh(ch[b], col). An id outside
  [0, 4096) is no channel's, so its row adds nothing anywhere.
-/
import Idealize.ShloMosaic.PureOps.Ideal
import Idealize.ShloMosaic.Lib.ValueIdx

noncomputable section

open scoped BigOperators

namespace Cert.Spec

open Idealize.ShloMosaic Idealize.ShloMosaic.ValueIdx

/-- 1 if the channel id `w` is the channel `col`, else 0. -/
def oh (w : BitVec 32) (col : Nat) : EReal := if w = BitVec.ofNat 32 col then 1 else 0

/-- The sum of feature `d` over the rows of channel `col`. -/
def zsum (z : (⟨2, ![524288, 128]⟩ : Shape).Idx → EReal) (ch : (⟨1, ![524288]⟩ : Shape).Idx → BitVec 32) (d : Fin 128) (col : Nat) : EReal :=
  ∑ b : Fin 524288, z (ix2 b d) * oh (ch (ix1 b)) col

/-- The number of rows of channel `col`. -/
def cnt (ch : (⟨1, ![524288]⟩ : Shape).Idx → BitVec 32) (col : Nat) : EReal :=
  ∑ b : Fin 524288, oh (ch (ix1 b)) col

/-- The feature sums laid out [feature, channel]. -/
def ZT (z : (⟨2, ![524288, 128]⟩ : Shape).Idx → EReal) (ch : (⟨1, ![524288]⟩ : Shape).Idx → BitVec 32) : (⟨2, ![128, 4096]⟩ : Shape).Idx → EReal :=
  fun j => zsum z ch (j 0) (j 1).val

/-- The counts laid out [1, channel]. -/
def CN (ch : (⟨1, ![524288]⟩ : Shape).Idx → BitVec 32) : (⟨2, ![1, 4096]⟩ : Shape).Idx → EReal :=
  fun j => cnt ch (j 1).val

end Cert.Spec

end
-- ==== Proof.KI.Pay.lean ====
/-
  The body's stored values read at one index, over the extended reals. A chunk is 1024 rows: `v11` their feature
  rows, `v14` their channel ids. At the channel block whose first channel is 2048 * (grid coordinate 0):
  the new feature-sum block at (d, c') is the old one plus the sum over the chunk's rows r of
  v11[r, d] * oh(v14[r], 2048 * coordinate + c'), and the new count block at c' the old one plus the sum of
  oh(v14[r], 2048 * coordinate + c'); the reset stores zeros.
-/
import proofs.«421653_j48661979464237_3_alg».proof.Proof.Gen.KernelIdeal.Skeleton
import proofs.«421653_j48661979464237_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.Val

open Cert.KernelIdeal Cert.KernelIdeal.Gen Idealize.ShloMosaic Idealize.ShloMosaic.ValueIdx

/-- Words: the first channel of block `a`, `2048 * a`, plus the column `c` is the channel number `a * 2048 + c`. -/
private theorem word_channel (a c : Nat) :
    BitVec.ofNat 32 a * 2048#32 + BitVec.ofNat 32 c = BitVec.ofNat 32 (a * 2048 + c) := by
  rw [BitVec.ofNat_add, BitVec.ofNat_mul]

/-- A decided equality of two words, widened to 32 bits and converted signed, is the extended real 1 or 0. -/
private theorem word_eq_real (w W : BitVec 32) :
    (((((IntOp.cmpi .eq w W).setWidth 32).toInt : ℤ) : ℝ) : EReal) = if w = W then 1 else 0 := by
  unfold IntOp.cmpi
  by_cases h : w = W
  · subst h
    rw [if_pos rfl]
    have : ((BitVec.ofBool (w == w)).setWidth 32).toInt = 1 := by simp
    rw [this]; norm_cast
  · rw [if_neg h]
    have hb : (w == W) = false := by simpa using h
    have : ((BitVec.ofBool (w == W)).setWidth 32).toInt = 0 := by rw [hb]; decide
    rw [this]; norm_cast

/-- The chunk's channel ids laid along the rows: entry (r, c') of the row broadcast is the id of row r. -/
private theorem rows_apply (v14 : IVec S1x1x1024 32) (r : Fin 1024) (c' : Fin 2048) :
    broadcastTo S1024x2048 (transpose S1024x1 [1, 0] (shapeCast S1x1024 (shapeCast S1x1x1024 v14 shapeCasts_S1x1x1024_S1x1x1024)
        shapeCasts_S1x1x1024_S1x1024) transposes_S1x1024_p1_0_S1024x1) broadcasts_S1024x1_S1024x2048 (ix2 r c')
      = v14 (ix3 (0 : Fin 1) (0 : Fin 1) r) := by
  rw [shapeCast_self]
  refine (broadcastTo_apply _ _ (ix2 r c') (ix2 r (0 : Fin 1)) ?_).trans ?_
  · intro a
    match a with
    | ⟨0, _⟩ => rfl
    | ⟨1, _⟩ => rfl
  refine (transpose_apply _ _ _ (ix2 r (0 : Fin 1)) (ix2 (0 : Fin 1) r) ?_).trans ?_
  · intro b
    match b with
    | ⟨0, _⟩ => rfl
    | ⟨1, _⟩ => rfl
  refine shapeCast_apply _ _ (ix2 (0 : Fin 1) r) (ix3 (0 : Fin 1) (0 : Fin 1) r) ?_
  rw [Shape.rowMajor_val_three, Shape.rowMajor_val_two]
  rfl

/-- The block's channel numbers laid along the columns: entry (r, c') is the word of `i0 * 2048 + c'`. -/
private theorem cols_apply (i0 : Nat) (r : Fin 1024) (c' : Fin 2048) :
    broadcastTo S1024x2048 (addi (broadcast S1x2048 (Scalar.muli (BitVec.ofNat 32 i0) 2048#32))
        (iota .tc S1x2048 32 [1] iota_S1x2048_d1_w32)) broadcasts_S1x2048_S1024x2048 (ix2 r c')
      = BitVec.ofNat 32 (i0 * 2048 + c'.val) := by
  refine (broadcastTo_apply _ _ (ix2 r c') (ix2 (0 : Fin 1) c') ?_).trans ?_
  · intro a
    match a with
    | ⟨0, _⟩ => rfl
    | ⟨1, _⟩ => rfl
  show IntOp.addi (Scalar.muli (BitVec.ofNat 32 i0) 2048#32) (iota .tc S1x2048 32 [1] iota_S1x2048_d1_w32 (ix2 (0 : Fin 1) c')) = _
  rw [iota_single_apply]
  exact word_channel i0 c'.val

/-- The one-hot payload at (r, c'): 1 if row r's channel id is channel `i0 * 2048 + c'`, else 0. -/
private theorem pay3_apply (i : grid0.Coords) (v14 : Vec Ideal S1x1x1024 .i32) (r : Fin 1024) (c' : Fin 2048) :
    k0_pay3 (F := Ideal) i v14 (ix2 r c') = Cert.Spec.oh (v14 (ix3 (0 : Fin 1) (0 : Fin 1) r)) ((i 0).val * 2048 + c'.val) := by
  unfold k0_pay3 Cert.Spec.oh
  rw [← rows_apply v14 r c', ← cols_apply (i 0).val r c']
  exact word_eq_real _ _

/-! The operand indices of the two contractions. Both contract the chunk's row axis alone, so the contraction index is
one row number; each operand index has that row on its contracted axis and the output index's coordinate on the other. -/

/-- Feature sums: the left operand's row axis reads the contraction's coordinate. -/
private theorem lhs_feat_0 (j : S128x2048.Idx) (k : dot_S1024x128_S1024x2048_S128x2048_0_0_1_1_n_n.contr.Idx) :
    (dot_S1024x128_S1024x2048_S128x2048_0_0_1_1_n_n.lhsIdx j k 0).val = (k ⟨0, by decide⟩).val :=
  DotDims.lhsIdx_val_of_single _ rfl j k

/-- Feature sums: the left operand's feature axis reads the output's first coordinate. -/
private theorem lhs_feat_1 (j : S128x2048.Idx) (k : dot_S1024x128_S1024x2048_S128x2048_0_0_1_1_n_n.contr.Idx) :
    (dot_S1024x128_S1024x2048_S128x2048_0_0_1_1_n_n.lhsIdx j k 1).val = (j 0).val := by
  unfold DotDims.lhsIdx
  rw [dif_neg (show ¬(1 : Fin S1024x128.rank) ∈ dot_S1024x128_S1024x2048_S128x2048_0_0_1_1_n_n.lhsBatch by decide),
    dif_pos (show (1 : Fin S1024x128.rank) ∈ dot_S1024x128_S1024x2048_S128x2048_0_0_1_1_n_n.lhsNonContracting by decide)]
  rfl

/-- Feature sums: the right operand's row axis reads the contraction's coordinate. -/
private theorem rhs_feat_0 (j : S128x2048.Idx) (k : dot_S1024x128_S1024x2048_S128x2048_0_0_1_1_n_n.contr.Idx) :
    (dot_S1024x128_S1024x2048_S128x2048_0_0_1_1_n_n.rhsIdx j k 0).val = (k ⟨0, by decide⟩).val :=
  DotDims.rhsIdx_val_of_single _ rfl j k

/-- Feature sums: the right operand's channel axis reads the output's second coordinate. -/
private theorem rhs_feat_1 (j : S128x2048.Idx) (k : dot_S1024x128_S1024x2048_S128x2048_0_0_1_1_n_n.contr.Idx) :
    (dot_S1024x128_S1024x2048_S128x2048_0_0_1_1_n_n.rhsIdx j k 1).val = (j 1).val := by
  unfold DotDims.rhsIdx
  rw [dif_neg (show ¬(1 : Fin S1024x2048.rank) ∈ dot_S1024x128_S1024x2048_S128x2048_0_0_1_1_n_n.rhsBatch by decide),
    dif_pos (show (1 : Fin S1024x2048.rank) ∈ dot_S1024x128_S1024x2048_S128x2048_0_0_1_1_n_n.rhsNonContracting by decide)]
  rfl

/-- Counts: the right operand's row axis reads the contraction's coordinate. -/
private theorem rhs_cnt_0 (j : S1x2048.Idx) (k : dot_S1x1024_S1024x2048_S1x2048_1_0_0_1_n_n.contr.Idx) :
    (dot_S1x1024_S1024x2048_S1x2048_1_0_0_1_n_n.rhsIdx j k 0).val = (k ⟨0, by decide⟩).val :=
  DotDims.rhsIdx_val_of_single _ rfl j k

/-- Counts: the right operand's channel axis reads the output's second coordinate. -/
private theorem rhs_cnt_1 (j : S1x2048.Idx) (k : dot_S1x1024_S1024x2048_S1x2048_1_0_0_1_n_n.contr.Idx) :
    (dot_S1x1024_S1024x2048_S1x2048_1_0_0_1_n_n.rhsIdx j k 1).val = (j 1).val := by
  unfold DotDims.rhsIdx
  rw [dif_neg (show ¬(1 : Fin S1024x2048.rank) ∈ dot_S1x1024_S1024x2048_S1x2048_1_0_0_1_n_n.rhsBatch by decide),
    dif_pos (show (1 : Fin S1024x2048.rank) ∈ dot_S1x1024_S1024x2048_S1x2048_1_0_0_1_n_n.rhsNonContracting by decide)]
  rfl

/-- The feature-sum payload at an index. -/
theorem pay4_apply (i : grid0.Coords) (v11 : Vec Ideal S1024x128 .f32) (v14 : Vec Ideal S1x1x1024 .i32) (a : Vec Ideal S128x2048 .f32)
    (d : Fin 128) (c' : Fin 2048) :
    k0_pay4 (F := Ideal) i v11 v14 a (ix2 d c')
      = a (ix2 d c') + ∑ r : Fin 1024, v11 (ix2 r d) * Cert.Spec.oh (v14 (ix3 (0 : Fin 1) (0 : Fin 1) r)) ((i 0).val * 2048 + c'.val) := by
  unfold k0_pay4
  simp only [matmul]
  rw [addf_apply, shapeCast_self, Ideal.matmul_constant_zero_apply]
  congr 1
  rw [← Equiv.sum_comp (contrEquiv1 dot_S1024x128_S1024x2048_S128x2048_0_0_1_1_n_n 1024 rfl rfl).symm]
  refine Finset.sum_congr rfl fun r _ => ?_
  have hk := contrEquiv1_symm_val dot_S1024x128_S1024x2048_S128x2048_0_0_1_1_n_n 1024 rfl rfl r
  have hl : dot_S1024x128_S1024x2048_S128x2048_0_0_1_1_n_n.lhsIdx (ix2 d c')
      ((contrEquiv1 dot_S1024x128_S1024x2048_S128x2048_0_0_1_1_n_n 1024 rfl rfl).symm r) = ix2 r d :=
    Shape.idx_ext₂ ((lhs_feat_0 _ _).trans hk) (lhs_feat_1 _ _)
  have hr : dot_S1024x128_S1024x2048_S128x2048_0_0_1_1_n_n.rhsIdx (ix2 d c')
      ((contrEquiv1 dot_S1024x128_S1024x2048_S128x2048_0_0_1_1_n_n 1024 rfl rfl).symm r) = ix2 r c' :=
    Shape.idx_ext₂ ((rhs_feat_0 _ _).trans hk) (rhs_feat_1 _ _)
  rw [hl, hr, truncf_apply, pay3_apply]

/-- The count payload at an index. -/
theorem pay5_apply (i : grid0.Coords) (v14 : Vec Ideal S1x1x1024 .i32) (a : Vec Ideal S1x2048 .f32) (c' : Fin 2048) :
    k0_pay5 (F := Ideal) i v14 a (ix2 (0 : Fin 1) c')
      = a (ix2 (0 : Fin 1) c') + ∑ r : Fin 1024, Cert.Spec.oh (v14 (ix3 (0 : Fin 1) (0 : Fin 1) r)) ((i 0).val * 2048 + c'.val) := by
  unfold k0_pay5
  simp only [matmul]
  rw [addf_apply, shapeCast_self, Ideal.matmul_constant_zero_apply]
  congr 1
  rw [← Equiv.sum_comp (contrEquiv1 dot_S1x1024_S1024x2048_S1x2048_1_0_0_1_n_n 1024 rfl rfl).symm]
  refine Finset.sum_congr rfl fun r _ => ?_
  have hk := contrEquiv1_symm_val dot_S1x1024_S1024x2048_S1x2048_1_0_0_1_n_n 1024 rfl rfl r
  have hr : dot_S1x1024_S1024x2048_S1x2048_1_0_0_1_n_n.rhsIdx (ix2 (0 : Fin 1) c')
      ((contrEquiv1 dot_S1x1024_S1024x2048_S1x2048_1_0_0_1_n_n 1024 rfl rfl).symm r) = ix2 r c' :=
    Shape.idx_ext₂ ((rhs_cnt_0 _ _).trans hk) (rhs_cnt_1 _ _)
  rw [hr, pay3_apply, broadcast_apply]
  show Ideal.ofBits .bf16 0x3F80#16 * _ = _
  rw [Ideal.ofBits_one_bf16, one_mul]

/-- The reset's feature-sum block is zero. -/
theorem pay1_apply (j : S128x2048.Idx) : k0_pay1 (F := Ideal) j = 0 := by
  show Ideal.ofBits .f32 0x00000000#32 = 0
  exact Ideal.ofBits_zero_f32

/-- The reset's count block is zero. -/
theorem pay2_apply (j : S1x2048.Idx) : k0_pay2 (F := Ideal) j = 0 := by
  show Ideal.ofBits .f32 0x00000000#32 = 0
  exact Ideal.ofBits_zero_f32

end Cert.KernelIdeal.Val

end
-- ==== Proof.KI.Rows.lean ====
/-
  The two arguments the kernel reads, by row number: Z row d is z[row, d] and C row is ch[row], for row < 524288;
  beyond the last row they are 0, which no statement uses.
-/
import proofs.«421653_j48661979464237_3_alg».proof.KernelIdeal
import proofs.«421653_j48661979464237_3_alg».proof.Proof.Gen.KernelIdeal
import Idealize.ShloMosaic.Lib.Pipeline.Kit
import proofs.«421653_j48661979464237_3_alg».proof.Proof.Spec
import Idealize.ShloMosaic.Lib.ValueIdx

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- z[row, d]. -/
def Z (c : Dev nD) (row : ℕ) (d : Fin 128) : EReal :=
  if h : row < 524288 then (m ((c.tc : Thread nD τ).loc main_arg0) : Vec Ideal S524288x128 .f32) (ix2 ⟨row, h⟩ d) else 0
/-- ch[row]. -/
def C (c : Dev nD) (row : ℕ) : BitVec 32 :=
  if h : row < 524288 then (m ((c.tc : Thread nD τ).loc main_arg2) : Vec Ideal S524288 .i32) (ix1 ⟨row, h⟩) else 0

/-- Row `row`'s contribution to the feature sum of channel `col` at feature `d`. -/
def term (c : Dev nD) (d : Fin 128) (col : ℕ) (row : ℕ) : EReal := Z m c row d * Cert.Spec.oh (C m c row) col
/-- Row `row`'s contribution to the count of channel `col`. -/
def cterm (c : Dev nD) (col : ℕ) (row : ℕ) : EReal := Cert.Spec.oh (C m c row) col

/-- Over all rows the contributions sum to the feature sum, -/
theorem sum_term (c : Dev nD) (d : Fin 128) (col : ℕ) :
    (∑ row : Fin 524288, term m c d col row.val) = Cert.Spec.zsum (m ((c.tc : Thread nD τ).loc main_arg0)) (m ((c.tc : Thread nD τ).loc main_arg2)) d col := by
  unfold term Z C Cert.Spec.zsum
  exact Finset.sum_congr rfl fun b _ => by rw [dif_pos b.isLt, dif_pos b.isLt]
/-- and to the count. -/
theorem sum_cterm (c : Dev nD) (col : ℕ) :
    (∑ row : Fin 524288, cterm m c col row.val) = Cert.Spec.cnt (m ((c.tc : Thread nD τ).loc main_arg2)) col := by
  unfold cterm C Cert.Spec.cnt
  exact Finset.sum_congr rfl fun b _ => by rw [dif_pos b.isLt]

end Cert.KernelIdeal.Val

end
-- ==== Proof.KI.Blocks.lean ====
/-
  What the body's loads read, by row number. At grid point t the row block is rows 8192 * (t mod 64) onwards of z and
  the id block the same rows of ch (the id array is ch reshaped to [64, 1, 8192] before the region, row-major, so
  its entry (b, 0, r) is ch[8192 * b + r]); chunk k of a block is its rows 1024 * k onwards.
-/
import proofs.«421653_j48661979464237_3_alg».proof.Proof.KI.Rows
import proofs.«421653_j48661979464237_3_alg».proof.Proof.Gen.KernelIdeal.Frame
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The row block's index map over the grid: block `t mod 64` along the rows, block 0 along the features. -/
private theorem idx0 : ∀ t : Fin cfg0.N, win0_0.index t (0 : Fin 2) = t.val % 64 ∧ win0_0.index t (1 : Fin 2) = 0 :=
  (by decide +kernel : ∀ t : Fin grid0.N, _)

/-- The id block's index map over the grid: block `t mod 64` along the leading axis, block 0 along the other two. -/
private theorem idx1 : ∀ t : Fin cfg0.N, win0_1.index t (0 : Fin 3) = t.val % 64 ∧ win0_1.index t (1 : Fin 3) = 0
    ∧ win0_1.index t (2 : Fin 3) = 0 :=
  (by decide +kernel : ∀ t : Fin grid0.N, _)

/-- The id array as the region finds it: ch reshaped to [64, 1, 8192], the one host operation before the region. -/
private theorem V_main_v0 (c : Dev nD) :
    (V m c main_v0 : S64x1x8192.Idx → BitVec 32)
      = shapeCast S64x1x8192 (m ((c.tc : Thread nD τ).loc main_arg2)) shapeCasts_S524288_S64x1x8192 := by
  dsimp only [Gen.V, Gen.V0]
  simp only [Gen.hostOps0, List.flatten_cons, List.flatten_nil, List.append_nil, List.cons_append, List.nil_append]
  after_results
  rfl

/-- The row block at point `t`, entry (r, d): z[8192 * (t mod 64) + r, d]. -/
theorem iblk0_apply (c : Dev nD) (t : Fin cfg0.N) (r : Fin 8192) (d : Fin 128) :
    (iblk m c 0 t : Vec Ideal S8192x128 .f32) (ix2 r d) = Z m c ((t.val % 64) * 8192 + r.val) d := by
  obtain ⟨e0, e1⟩ := idx0 t
  have hrow : (t.val % 64) * 8192 + r.val < 524288 := by have := r.isLt; omega
  unfold Z; rw [dif_pos hrow]
  show V m c main_arg0 (((cfg0.win 0).blk t).view.emb (ix2 r d)) = _
  rw [V_main_arg0]
  refine congrArg _ (funext fun a => Fin.ext ?_)
  match a with
  | ⟨0, _⟩ => show win0_0.index t (0 : Fin 2) * 8192 + 1 * r.val = (t.val % 64) * 8192 + r.val; omega
  | ⟨1, _⟩ => show win0_0.index t (1 : Fin 2) * 128 + 1 * d.val = d.val; omega

/-- The id block at point `t`, entry (0, 0, r): ch[8192 * (t mod 64) + r]. -/
theorem iblk1_apply (c : Dev nD) (t : Fin cfg0.N) (r : Fin 8192) :
    (iblk m c 1 t : Vec Ideal S1x1x8192 .i32) (ix3 (0 : Fin 1) (0 : Fin 1) r) = C m c ((t.val % 64) * 8192 + r.val) := by
  obtain ⟨e0, e1, e2⟩ := idx1 t
  have hrow : (t.val % 64) * 8192 + r.val < 524288 := by have := r.isLt; omega
  unfold C; rw [dif_pos hrow]
  show V m c main_v0 (((cfg0.win 1).blk t).view.emb (ix3 (0 : Fin 1) (0 : Fin 1) r)) = _
  rw [V_main_v0 m c]
  refine shapeCast_apply _ _ _ _ ?_
  show ((⟨1, ![524288]⟩ : Shape).rowMajor (ix1 ⟨(t.val % 64) * 8192 + r.val, hrow⟩)).val
    = ((⟨3, ![64, 1, 8192]⟩ : Shape).rowMajor (((cfg0.win 1).blk t).view.emb (ix3 (0 : Fin 1) (0 : Fin 1) r))).val
  rw [Shape.rowMajor_val_one, Shape.rowMajor_val_three]
  show (t.val % 64) * 8192 + r.val
    = ((win0_1.index t (0 : Fin 3) * 1 + 1 * 0) * 1 + (win0_1.index t (1 : Fin 3) * 1 + 1 * 0)) * 8192
      + (win0_1.index t (2 : Fin 3) * 8192 + 1 * r.val)
  omega

/-- Chunk `k` of a row block, entry (r, d): the block's row 1024 * k + r. -/
theorem ld_chunk0 (x0 : Vec Ideal S8192x128 .f32) (k : Fin k0_t1_loop.trips) (r : Fin 1024) (d : Fin 128)
    (h : k.val * 1024 + r.val < 8192) :
    (View.ld x0 (Rect.unit (s := S8192x128) (k0_off1 k) S1024x128.size (k0_off1_inb k)) : Vec Ideal S1024x128 .f32) (ix2 r d)
      = x0 (ix2 ⟨k.val * 1024 + r.val, h⟩ d) := by
  have e := k0_off1_eq k
  show x0 _ = x0 _
  refine congrArg x0 (funext fun a => Fin.ext ?_)
  match a with
  | ⟨0, _⟩ => show k0_off1 k 0 + 1 * r.val = k.val * 1024 + r.val; rw [e]; show 1024 * k.val + 1 * r.val = _; omega
  | ⟨1, _⟩ => show k0_off1 k 1 + 1 * d.val = d.val; rw [e]; show 0 + 1 * d.val = _; omega

/-- Chunk `k` of an id block, entry (0, 0, r): the block's entry 1024 * k + r. -/
theorem ld_chunk1 (x1 : Vec Ideal S1x1x8192 .i32) (k : Fin k0_t1_loop.trips) (r : Fin 1024)
    (h : k.val * 1024 + r.val < 8192) :
    (View.ld x1 (Rect.unit (s := S1x1x8192) (k0_off2 k) S1x1x1024.size (k0_off2_inb k)) : Vec Ideal S1x1x1024 .i32) (ix3 (0 : Fin 1) (0 : Fin 1) r)
      = x1 (ix3 (0 : Fin 1) (0 : Fin 1) ⟨k.val * 1024 + r.val, h⟩) := by
  have e := k0_off2_eq k
  show x1 _ = x1 _
  refine congrArg x1 (funext fun a => Fin.ext ?_)
  match a with
  | ⟨0, _⟩ => show k0_off2 k 0 + 1 * 0 = 0; rw [e]; rfl
  | ⟨1, _⟩ => show k0_off2 k 1 + 1 * 0 = 0; rw [e]; rfl
  | ⟨2, _⟩ => show k0_off2 k 2 + 1 * r.val = k.val * 1024 + r.val; rw [e]; show 1024 * k.val + 1 * r.val = _; omega

/-- The grid coordinates of point `t` in the row-major order of the 2 x 64 grid. -/
theorem coords_apply (t : Fin cfg0.N) : ((grid0.coords t) 0).val = t.val / 64 ∧ ((grid0.coords t) 1).val = t.val % 64 := by
  exact (by decide +kernel : ∀ t : Fin grid0.N, ((grid0.coords t) 0).val = t.val / 64 ∧ ((grid0.coords t) 1).val = t.val % 64) t

end Cert.KernelIdeal.Val

end
-- ==== Proof.Algebra.lean ====
/-
  Regrouping a sum over the 524288 rows: row = 8192 * block + 1024 * chunk + r with 64 blocks, 8 chunks, 1024 rows.
-/
import Mathlib.Algebra.BigOperators.Fin
import Mathlib.Algebra.BigOperators.Intervals

open scoped BigOperators

namespace Cert.Algebra

/-- A double sum over `a` groups of `c` consecutive naturals is the single sum over the first `a * c` naturals:
    by induction on `a`, the last group being the tail `a * c, …, a * c + c - 1` of the range. -/
private theorem sum_range_mul {M : Type} [AddCommMonoid M] (G : ℕ → M) (a c : ℕ) :
    (∑ k ∈ Finset.range a, ∑ r ∈ Finset.range c, G (k * c + r)) = ∑ i ∈ Finset.range (a * c), G i := by
  induction a with
  | zero => simp
  | succ a ih =>
    rw [Finset.sum_range_succ, ih, Nat.add_one_mul, Finset.sum_range_add]

/-- One row block: its 8 chunks of 1024 rows are the 8192 consecutive rows from `b * 8192` on. -/
private theorem sum_block {M : Type} [AddCommMonoid M] (F : ℕ → M) (b : ℕ) :
    (∑ k : Fin 8, ∑ r : Fin 1024, F (b * 8192 + k.val * 1024 + r.val))
      = ∑ i ∈ Finset.range 8192, F (b * 8192 + i) := by
  have h1 : ∀ k : Fin 8, (∑ r : Fin 1024, F (b * 8192 + k.val * 1024 + r.val))
      = ∑ r ∈ Finset.range 1024, F (b * 8192 + (k.val * 1024 + r)) := fun k => by
    rw [← Fin.sum_univ_eq_sum_range (fun r => F (b * 8192 + (k.val * 1024 + r))) 1024]
    exact Finset.sum_congr rfl (fun r _ => by rw [Nat.add_assoc])
  rw [Finset.sum_congr rfl (fun k _ => h1 k),
    Fin.sum_univ_eq_sum_range (fun k => ∑ r ∈ Finset.range 1024, F (b * 8192 + (k * 1024 + r))) 8]
  exact sum_range_mul (fun i => F (b * 8192 + i)) 8 1024

/-- The sum over the rows of the first `n` row blocks, block by block, chunk by chunk. -/
theorem sum_blocks {M : Type} [AddCommMonoid M] (F : ℕ → M) (n : ℕ) :
    (∑ b ∈ Finset.range n, ∑ k : Fin 8, ∑ r : Fin 1024, F (b * 8192 + k.val * 1024 + r.val))
      = ∑ row ∈ Finset.range (n * 8192), F row := by
  induction n with
  | zero => simp
  | succ n ih =>
    rw [Finset.sum_range_succ, ih, sum_block, Nat.add_one_mul, Finset.sum_range_add]

/-- All 64 blocks: the sum over all rows. -/
theorem sum_rows {M : Type} [AddCommMonoid M] (F : ℕ → M) :
    (∑ b ∈ Finset.range 64, ∑ k : Fin 8, ∑ r : Fin 1024, F (b * 8192 + k.val * 1024 + r.val))
      = ∑ row : Fin 524288, F row.val := by
  rw [sum_blocks F 64, Fin.sum_univ_eq_sum_range F 524288]

end Cert.Algebra
-- ==== Proof.KI.Acc.lean ====
/-
  The accumulators over the grid, at the extended reals. Within a point the eight chunk steps add, at (d, c'), the
  contributions of the point's 8192 rows to channel 2048 * (channel block) + c'; over the points of a channel block
  the carried blocks add up the row blocks one after the other, starting from zero at the first. So after point n the
  feature-sum block holds, at (d, c'), the sum over the row blocks 0 .. n mod 64 of the rows' contributions, and the
  count block the same for the counts; after the last point of a channel block that is the sum over all rows.
-/
import proofs.«421653_j48661979464237_3_alg».proof.Proof.KI.Loop
import proofs.«421653_j48661979464237_3_alg».proof.Proof.KI.Pay
import proofs.«421653_j48661979464237_3_alg».proof.Proof.KI.Blocks
import proofs.«421653_j48661979464237_3_alg».proof.Proof.KI.Rows
import proofs.«421653_j48661979464237_3_alg».proof.Proof.Algebra
import Mathlib.Algebra.BigOperators.Intervals

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem trips_le : k0_t1_loop.trips ≤ 8 := k0_t1_abs.2.1
theorem trips_eq : k0_t1_loop.trips = 8 := by decide

/-- The feature-sum block after `n` chunk steps, at an index: the start value plus the chunks' contributions, when
    the row block and id block are rows 8192 * b onwards. -/
theorem loopAcc2_apply (c : Dev nD) (i : grid0.Coords) (b : ℕ) (x0 : Vec Ideal S8192x128 .f32) (x1 : Vec Ideal S1x1x8192 .i32)
    (hx0 : ∀ (r : Fin 8192) (d : Fin 128), x0 (ix2 r d) = Z m c (b * 8192 + r.val) d)
    (hx1 : ∀ r : Fin 8192, x1 (ix3 (0 : Fin 1) (0 : Fin 1) r) = C m c (b * 8192 + r.val))
    (a : Vec Ideal S128x2048 .f32 × Vec Ideal S1x2048 .f32) (d : Fin 128) (c' : Fin 2048) : ∀ n : ℕ, n ≤ k0_t1_loop.trips →
    (loopAcc i x0 x1 n a).1 (ix2 d c') = a.1 (ix2 d c')
      + ∑ k ∈ Finset.range n, ∑ r : Fin 1024, term m c d ((i 0).val * 2048 + c'.val) (b * 8192 + k * 1024 + r.val)
  | 0, _ => by rw [Finset.sum_range_zero, add_zero]; rfl
  | n + 1, hn => by
    have h : n < k0_t1_loop.trips := hn
    have ih := loopAcc2_apply c i b x0 x1 hx0 hx1 a d c' n (Nat.le_of_lt h)
    rw [loopAcc, dif_pos h, Finset.sum_range_succ, ← add_assoc, ← ih]
    show step2 i x0 x1 ⟨n, h⟩ (loopAcc i x0 x1 n a).1 (ix2 d c') = _
    unfold step2
    rw [pay4_apply]
    congr 1
    refine Finset.sum_congr rfl fun r _ => ?_
    have hb : n * 1024 + r.val < 8192 := by have := trips_le; have := r.isLt; omega
    rw [ld_chunk0 x0 ⟨n, h⟩ r d hb, ld_chunk1 x1 ⟨n, h⟩ r hb, hx0, hx1]
    unfold term
    rw [Nat.add_assoc]

/-- The count block after `n` chunk steps, at an index. -/
theorem loopAcc3_apply (c : Dev nD) (i : grid0.Coords) (b : ℕ) (x0 : Vec Ideal S8192x128 .f32) (x1 : Vec Ideal S1x1x8192 .i32)
    (hx1 : ∀ r : Fin 8192, x1 (ix3 (0 : Fin 1) (0 : Fin 1) r) = C m c (b * 8192 + r.val))
    (a : Vec Ideal S128x2048 .f32 × Vec Ideal S1x2048 .f32) (c' : Fin 2048) : ∀ n : ℕ, n ≤ k0_t1_loop.trips →
    (loopAcc i x0 x1 n a).2 (ix2 (0 : Fin 1) c') = a.2 (ix2 (0 : Fin 1) c')
      + ∑ k ∈ Finset.range n, ∑ r : Fin 1024, cterm m c ((i 0).val * 2048 + c'.val) (b * 8192 + k * 1024 + r.val)
  | 0, _ => by rw [Finset.sum_range_zero, add_zero]; rfl
  | n + 1, hn => by
    have h : n < k0_t1_loop.trips := hn
    have ih := loopAcc3_apply c i b x0 x1 hx1 a c' n (Nat.le_of_lt h)
    rw [loopAcc, dif_pos h, Finset.sum_range_succ, ← add_assoc, ← ih]
    show step3 i x1 ⟨n, h⟩ (loopAcc i x0 x1 n a).2 (ix2 (0 : Fin 1) c') = _
    unfold step3
    rw [pay5_apply]
    congr 1
    refine Finset.sum_congr rfl fun r _ => ?_
    have hb : n * 1024 + r.val < 8192 := by have := trips_le; have := r.isLt; omega
    rw [ld_chunk1 x1 ⟨n, h⟩ r hb, hx1]
    unfold cterm
    rw [Nat.add_assoc]

/-- One row block's contributions, chunk by chunk. -/
abbrev blockSum (c : Dev nD) (d : Fin 128) (col : ℕ) (b : ℕ) : EReal :=
  ∑ k ∈ Finset.range 8, ∑ r : Fin 1024, term m c d col (b * 8192 + k * 1024 + r.val)
abbrev cblockSum (c : Dev nD) (col : ℕ) (b : ℕ) : EReal :=
  ∑ k ∈ Finset.range 8, ∑ r : Fin 1024, cterm m c col (b * 8192 + k * 1024 + r.val)

/-- After point `n` both accumulator blocks hold the sums over the row blocks 0 .. n mod 64 of the contributions to
    the channels of channel block n / 64. -/
theorem acc_eq (c : Dev nD) : ∀ (n : ℕ) (hn : n < cfg0.N),
    (∀ (d : Fin 128) (c' : Fin 2048), (outsAt0 m c n hn).1 (ix2 d c')
        = ∑ b ∈ Finset.range (n % 64 + 1), blockSum m c d ((n / 64) * 2048 + c'.val) b)
    ∧ (∀ c' : Fin 2048, (outsAt0 m c n hn).2 (ix2 (0 : Fin 1) c')
        = ∑ b ∈ Finset.range (n % 64 + 1), cblockSum m c ((n / 64) * 2048 + c'.val) b)
  | n, hn => by
    have hN : cfg0.N = 128 := N_0
    have hco := coords_apply ⟨n, hn⟩
    by_cases h0 : n % 64 = 0
    · have hA := outsAt0_A m c ⟨n, hn⟩ h0
      rw [outA_eq] at hA
      dsimp only at hA
      constructor
      · intro d c'
        rw [hA, loopAcc2_apply m c _ (n % 64) _ _ (fun r d => iblk0_apply m c ⟨n, hn⟩ r d) (fun r => iblk1_apply m c ⟨n, hn⟩ r) _ d c' _ le_rfl,
          trips_eq, hco.1, h0, Finset.sum_range_one]
        dsimp only
        rw [pay1_apply, zero_add]
      · intro c'
        rw [hA, loopAcc3_apply m c _ (n % 64) _ _ (fun r => iblk1_apply m c ⟨n, hn⟩ r) _ c' _ le_rfl,
          trips_eq, hco.1, h0, Finset.sum_range_one]
        dsimp only
        rw [pay2_apply, zero_add]
    · have hB := outsAt0_B m c ⟨n, hn⟩ h0
      rw [outB_eq] at hB
      dsimp only at hB
      have hn1 : n - 1 < cfg0.N := Nat.lt_of_le_of_lt (Nat.sub_le _ _) hn
      have ih := acc_eq c (n - 1) hn1
      have e1 : (n - 1) % 64 + 1 = n % 64 := by omega
      have e2 : (n - 1) / 64 = n / 64 := by omega
      rw [e1, e2] at ih
      constructor
      · intro d c'
        rw [hB, loopAcc2_apply m c _ (n % 64) _ _ (fun r d => iblk0_apply m c ⟨n, hn⟩ r d) (fun r => iblk1_apply m c ⟨n, hn⟩ r) _ d c' _ le_rfl,
          trips_eq, hco.1]
        dsimp only
        rw [ih.1 d c']
        exact (Finset.sum_range_succ (fun b => blockSum m c d ((n / 64) * 2048 + c'.val) b) (n % 64)).symm
      · intro c'
        rw [hB, loopAcc3_apply m c _ (n % 64) _ _ (fun r => iblk1_apply m c ⟨n, hn⟩ r) _ c' _ le_rfl,
          trips_eq, hco.1]
        dsimp only
        rw [ih.2 c']
        exact (Finset.sum_range_succ (fun b => cblockSum m c ((n / 64) * 2048 + c'.val) b) (n % 64)).symm
  termination_by n => n
  decreasing_by omega

/-- After the last point of a channel block the feature-sum block holds the feature sums of its channels, -/
theorem last2 (c : Dev nD) (t : Fin cfg0.N) (h63 : t.val % 64 = 63) (d : Fin 128) (c' : Fin 2048) :
    (outsAt0 m c t.val t.isLt).1 (ix2 d c')
      = Cert.Spec.zsum (m ((c.tc : Thread nD τ).loc main_arg0)) (m ((c.tc : Thread nD τ).loc main_arg2)) d ((t.val / 64) * 2048 + c'.val) := by
  rw [(acc_eq m c t.val t.isLt).1 d c', h63, ← sum_term]
  have := Cert.Algebra.sum_rows (term m c d ((t.val / 64) * 2048 + c'.val))
  simp only [Finset.sum_range] at this ⊢
  exact this
/-- and the count block their counts. -/
theorem last3 (c : Dev nD) (t : Fin cfg0.N) (h63 : t.val % 64 = 63) (c' : Fin 2048) :
    (outsAt0 m c t.val t.isLt).2 (ix2 (0 : Fin 1) c')
      = Cert.Spec.cnt (m ((c.tc : Thread nD τ).loc main_arg2)) ((t.val / 64) * 2048 + c'.val) := by
  rw [(acc_eq m c t.val t.isLt).2 c', h63, ← sum_cterm]
  have := Cert.Algebra.sum_rows (cterm m c ((t.val / 64) * 2048 + c'.val))
  simp only [Finset.sum_range] at this ⊢
  exact this

end Cert.KernelIdeal.Val

end
-- ==== Proof.KI.Final.lean ====
/-
  From the accumulators to the arrays. Each accumulator block is written back once per channel block, after the
  point 63 modulo 64, into columns 2048 * (channel block) onwards of its array; the two write-backs tile the 4096
  columns. So if after those points the feature-sum block holds the feature sums of its 2048 channels, and the count
  block their counts, the two arrays end holding all feature sums and all counts.
-/
import proofs.«421653_j48661979464237_3_alg».proof.Proof.KI.Frame
import proofs.«421653_j48661979464237_3_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! The write-backs' block indices, decided once over the grid: on the first axis always block 0, on the channel axis
the channel block `t / 64`. -/

private theorem idx_feat : ∀ t : Fin cfg0.N, win0_2.index t (0 : Fin 2) = 0 ∧ win0_2.index t (1 : Fin 2) = t.val / 64 :=
  (by decide +kernel : ∀ t : Fin grid0.N, win0_2.index t (0 : Fin 2) = 0 ∧ win0_2.index t (1 : Fin 2) = t.val / 64)

private theorem idx_cnt : ∀ t : Fin cfg0.N, win0_3.index t (0 : Fin 2) = 0 ∧ win0_3.index t (1 : Fin 2) = t.val / 64 :=
  (by decide +kernel : ∀ t : Fin grid0.N, win0_3.index t (0 : Fin 2) = 0 ∧ win0_3.index t (1 : Fin 2) = t.val / 64)

/-! ## The feature sums -/

/-- What a write-back of the feature-sum block writes is that block of an array function `G`, when after the point the
    block's (d, c') holds `G` at the array index (d, 2048 * (t / 64) + c'): that is where the block's element sits. -/
private theorem flushed_feat (c : Dev nD) (G : Vec Ideal S128x4096 .f32)
    (hG : ∀ t : Fin cfg0.N, t.val % 64 = 63 → ∀ (d : Fin 128) (c' : Fin 2048) (j : S128x4096.Idx),
      j 0 = d → (j 1).val = (t.val / 64) * 2048 + c'.val → (outsAt0 m c t.val t.isLt).1 (ix2 d c') = G j)
    (t : Fin cfg0.N) (hf : (cfg0.win 2).flush t = true) :
    (dats m 0 c).flushed 2 t = ((cfg0.win 2).blk t).view.read (Elt Ideal) G := by
  show (cfg0.win 2).cut (grid0.coords t) ((dats m 0 c).after 2 t) = _
  rw [after0_2]
  have h63 : t.val % 64 = 63 := (flush0_2 t).mp hf
  obtain ⟨e0, e1⟩ := idx_feat t
  funext y
  have hy : y = ix2 (y 0) (y 1) := eq_ix2 y
  have h0 : (((cfg0.win 2).blk t).view.emb y) 0 = y 0 :=
    Fin.ext (by show win0_2.index t (0 : Fin 2) * 128 + 1 * (y 0).val = (y 0).val; omega)
  have h1 : ((((cfg0.win 2).blk t).view.emb y) 1).val = (t.val / 64) * 2048 + (y 1).val := by
    show win0_2.index t (1 : Fin 2) * 2048 + 1 * (y 1).val = _; omega
  rw [View.read_apply]
  show (outsAt0 m c t.val t.isLt).1 y = G (((cfg0.win 2).blk t).view.emb y)
  rw [hy]
  exact hG t h63 (y 0) (y 1) _ h0 h1

/-- An index of the feature-sum array is in a point's block iff each coordinate is in the block's range on its axis. -/
private theorem mem_blk_feat (t : Fin cfg0.N) (i : S128x4096.Idx) :
    i ∈ ((cfg0.win 2).blk t).view.set ↔ ∀ a : Fin 2, win0_2.index t a * S128x2048.size a ≤ (i a).val ∧ (i a).val < win0_2.index t a * S128x2048.size a + S128x2048.size a := by
  show i ∈ ((View.whole main_v1_0).slice (win0_2.rect t)).set ↔ _
  rw [View.set_slice_whole, Rect.mem_set_unit]
  exact Iff.rfl

/-- Every index of the feature-sum array is in the block written back after the last point of its channel block. -/
private theorem cover_feat (i : S128x4096.Idx) :
    ∃ t : Fin cfg0.N, (cfg0.win 2).flush t = true ∧ i ∈ ((cfg0.win 2).blk t).view.set := by
  have hN : cfg0.N = 128 := N_0
  have hi0 : (i 0).val < 128 := (i 0).isLt
  have hi1 : (i 1).val < 4096 := (i 1).isLt
  have hlt : (i 1).val / 2048 * 64 + 63 < cfg0.N := by rw [hN]; omega
  obtain ⟨t, ht⟩ : ∃ t : Fin cfg0.N, t.val = (i 1).val / 2048 * 64 + 63 := ⟨⟨_, hlt⟩, rfl⟩
  obtain ⟨e0, e1⟩ := idx_feat t
  refine ⟨t, (flush0_2 t).mpr (by omega), ?_⟩
  rw [mem_blk_feat]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 2048 ≤ (i 1).val ∧ (i 1).val < win0_2.index t (1 : Fin 2) * 2048 + 2048
    omega

/-- The feature-sum array after the run, given what its block holds at the write-backs. -/
theorem final2 (c : Dev nD)
    (hlast : ∀ t : Fin cfg0.N, t.val % 64 = 63 → ∀ (d : Fin 128) (c' : Fin 2048),
      (outsAt0 m c t.val t.isLt).1 (ix2 d c') = Cert.Spec.zsum (m ((c.tc : Thread nD τ).loc main_arg0)) (m ((c.tc : Thread nD τ).loc main_arg2)) d ((t.val / 64) * 2048 + c'.val)) :
    ((dats m 0 c).arrAt 2 cfg0.N : Vec Ideal S128x4096 .f32) = Cert.Spec.ZT (m ((c.tc : Thread nD τ).loc main_arg0)) (m ((c.tc : Thread nD τ).loc main_arg2)) := by
  refine (dats m 0 c).arrAt_eq_of_cover 2 _ (flushed_feat m c _ ?_) cover_feat
  intro t h63 d c' j hj0 hj1
  show _ = Cert.Spec.zsum _ _ (j 0) (j 1).val
  rw [hj0, hj1]
  exact hlast t h63 d c'

/-! ## The counts -/

/-- What a write-back of the count block writes is that block of an array function `G`, when after the point the
    block's (0, c') holds `G` at the array index (0, 2048 * (t / 64) + c'). -/
private theorem flushed_cnt (c : Dev nD) (G : Vec Ideal S1x4096 .f32)
    (hG : ∀ t : Fin cfg0.N, t.val % 64 = 63 → ∀ (c' : Fin 2048) (j : S1x4096.Idx),
      (j 1).val = (t.val / 64) * 2048 + c'.val → (outsAt0 m c t.val t.isLt).2 (ix2 (0 : Fin 1) c') = G j)
    (t : Fin cfg0.N) (hf : (cfg0.win 3).flush t = true) :
    (dats m 0 c).flushed 3 t = ((cfg0.win 3).blk t).view.read (Elt Ideal) G := by
  show (cfg0.win 3).cut (grid0.coords t) ((dats m 0 c).after 3 t) = _
  rw [after0_3]
  have h63 : t.val % 64 = 63 := (flush0_3 t).mp hf
  obtain ⟨e0, e1⟩ := idx_cnt t
  funext y
  have hy0 : y 0 = (0 : Fin 1) := Fin.ext (by have h : (y 0).val < 1 := (y 0).isLt; show (y 0).val = 0; omega)
  have hy : y = ix2 (0 : Fin 1) (y 1) := by
    funext a
    match a with
    | ⟨0, _⟩ => exact hy0
    | ⟨1, _⟩ => rfl
  have h1 : ((((cfg0.win 3).blk t).view.emb y) 1).val = (t.val / 64) * 2048 + (y 1).val := by
    show win0_3.index t (1 : Fin 2) * 2048 + 1 * (y 1).val = _; omega
  rw [View.read_apply]
  show (outsAt0 m c t.val t.isLt).2 y = G (((cfg0.win 3).blk t).view.emb y)
  rw [hy]
  exact hG t h63 (y 1) _ h1

/-- An index of the count array is in a point's block iff each coordinate is in the block's range on its axis. -/
private theorem mem_blk_cnt (t : Fin cfg0.N) (i : S1x4096.Idx) :
    i ∈ ((cfg0.win 3).blk t).view.set ↔ ∀ a : Fin 2, win0_3.index t a * S1x2048.size a ≤ (i a).val ∧ (i a).val < win0_3.index t a * S1x2048.size a + S1x2048.size a := by
  show i ∈ ((View.whole main_v1_1).slice (win0_3.rect t)).set ↔ _
  rw [View.set_slice_whole, Rect.mem_set_unit]
  exact Iff.rfl

/-- Every index of the count array is in the block written back after the last point of its channel block. -/
private theorem cover_cnt (i : S1x4096.Idx) :
    ∃ t : Fin cfg0.N, (cfg0.win 3).flush t = true ∧ i ∈ ((cfg0.win 3).blk t).view.set := by
  have hN : cfg0.N = 128 := N_0
  have hi0 : (i 0).val < 1 := (i 0).isLt
  have hi1 : (i 1).val < 4096 := (i 1).isLt
  have hlt : (i 1).val / 2048 * 64 + 63 < cfg0.N := by rw [hN]; omega
  obtain ⟨t, ht⟩ : ∃ t : Fin cfg0.N, t.val = (i 1).val / 2048 * 64 + 63 := ⟨⟨_, hlt⟩, rfl⟩
  obtain ⟨e0, e1⟩ := idx_cnt t
  refine ⟨t, (flush0_3 t).mpr (by omega), ?_⟩
  rw [mem_blk_cnt]
  intro a
  match a with
  | ⟨0, _⟩ =>
    show win0_3.index t (0 : Fin 2) * 1 ≤ (i 0).val ∧ (i 0).val < win0_3.index t (0 : Fin 2) * 1 + 1
    omega
  | ⟨1, _⟩ =>
    show win0_3.index t (1 : Fin 2) * 2048 ≤ (i 1).val ∧ (i 1).val < win0_3.index t (1 : Fin 2) * 2048 + 2048
    omega

/-- The count array after the run, given what its block holds at the write-backs. -/
theorem final3 (c : Dev nD)
    (hlast : ∀ t : Fin cfg0.N, t.val % 64 = 63 → ∀ c' : Fin 2048,
      (outsAt0 m c t.val t.isLt).2 (ix2 (0 : Fin 1) c') = Cert.Spec.cnt (m ((c.tc : Thread nD τ).loc main_arg2)) ((t.val / 64) * 2048 + c'.val)) :
    ((dats m 0 c).arrAt 3 cfg0.N : Vec Ideal S1x4096 .f32) = Cert.Spec.CN (m ((c.tc : Thread nD τ).loc main_arg2)) := by
  refine (dats m 0 c).arrAt_eq_of_cover 3 _ (flushed_cnt m c _ ?_) cover_cnt
  intro t h63 c' j hj1
  show _ = Cert.Spec.cnt _ (j 1).val
  rw [hj1]
  exact hlast t h63 c'

end Cert.KernelIdeal.Val

end
-- ==== Proof.KI.Tail.lean ====
/-
  The host lines after the region, read at the two results. The first result is the feature-sum array transposed to
  [channel, feature] and divided, entry by entry, by max(count, 1) of its channel; the second is the label of each
  channel's first row, computed from the two integer arguments alone.
-/
import proofs.«421653_j48661979464237_3_alg».proof.Proof.KI.Frame
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the lines after the region read

The lines after the region start from the core's contents as the region leaves them: each array of the pipeline at
its final contents, every other buffer as the region found it. The tail reads four buffers there: the two result
arrays of the pipeline, and the two integer arguments, which no window stages and no earlier host line writes. -/

/-- The feature-sum array (window 2's) is left at its final contents. -/
private theorem exit_v1_0 (c : Dev nD) :
    Pipeline.withArrays (cfgs 0).spec c (V0 m c) (fun w => (dats m 0 c).arrAt w (cfgs 0).N) (Proc.devRef .tc main_v1_0)
      = (dats m 0 c).arrAt 2 cfg0.N :=
  Pipeline.withArrays_arr spec0 launch0.win.arr_inj c (V0 m c) (fun w => (dats m 0 c).arrAt w cfg0.N) 2

/-- The count array (window 3's) is left at its final contents. -/
private theorem exit_v1_1 (c : Dev nD) :
    Pipeline.withArrays (cfgs 0).spec c (V0 m c) (fun w => (dats m 0 c).arrAt w (cfgs 0).N) (Proc.devRef .tc main_v1_1)
      = (dats m 0 c).arrAt 3 cfg0.N :=
  Pipeline.withArrays_arr spec0 launch0.win.arr_inj c (V0 m c) (fun w => (dats m 0 c).arrAt w cfg0.N) 3

/-- The second argument is no array of the pipeline and no earlier line writes it: it is read as launched. -/
private theorem exit_arg1 (c : Dev nD) :
    Pipeline.withArrays (cfgs 0).spec c (V0 m c) (fun w => (dats m 0 c).arrAt w (cfgs 0).N) (Proc.devRef .tc main_arg1)
      = m ((c.tc : Thread nD τ).loc main_arg1) :=
  (Pipeline.withArrays_of_ne spec0 c (V0 m c) (fun w => (dats m 0 c).arrAt w cfg0.N) main_arg1
    (by decide : ∀ w, Pipeline.arrRef spec0 w ≠ main_arg1)).trans (V_main_arg1 m c)

/-- The third argument likewise. -/
private theorem exit_arg2 (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne spec0 c (V0 m c) (fun w => (dats m 0 c).arrAt w cfg0.N) main_arg2
    (by decide : ∀ w, Pipeline.arrRef spec0 w ≠ main_arg2)).trans (V_main_arg2 m c)

/-- The first result after the host lines: the mean, from the pipeline's two final arrays. -/
theorem tail_v8 (c : Dev nD) :
    Pipeline.afterTail₀ cfgs (dats m) 0 (V0 m) [hostOps1] c main_v8
      = Host.divf (transpose S4096x128 [1, 0] ((dats m 0 c).arrAt 2 cfg0.N) transposes_S128x4096_S4096x128_1_0)
          (broadcastInDim S4096x128 ![0, 1] bcast_S4096x1_S4096x128_0_1 (broadcastInDim S4096x1 ![0] bcast_S4096_S4096x1_0
            (maximumf (shapeCast S4096 ((dats m 0 c).arrAt 3 cfg0.N) shapeCasts_S1x4096_S4096)
              (broadcastInDim S4096 ![] bcast_S_S4096 (constant S_ .f32 0x3F800000#32))))) := by
  -- the lines run from the contents the region leaves
  unfold Pipeline.afterTail₀
  show StableHlo.after hostOps1 _ (Proc.devRef .tc main_v8) = _
  -- each line's result is its operation applied to its operands' contents: eight lines lead to the first result
  after_results_simp
  -- the transpose reads the feature-sum array and the reshape the count array, both at their final contents
  rw [exit_v1_0 m c, exit_v1_1 m c]
  -- the reshape read index by index is the reshape
  rfl

/-- The second result after the host lines: the first-row label chain over the two integer arguments. -/
theorem tail_v26 (c : Dev nD) :
    Pipeline.afterTail₀ cfgs (dats m) 0 (V0 m) [hostOps1] c main_v26
      = Host.gather gather_S524288_S4096x1_S4096_n_0_n_n_0_1_1 (m ((c.tc : Thread nD τ).loc main_arg1)) (broadcastInDim S4096x1 ![0] bcast_S4096_S4096x1_0 (select (cmpi .slt (minsi (Host.scatter scatter_S4096_S524288x1_S524288_n_0_0_1 IntOp.minsi (broadcastInDim S4096 ![] bcast_S_S4096 (constantI S_ 32 524288#32)) (broadcastInDim S524288x1 ![0] bcast_S524288_S524288x1_0 (select (cmpi .slt (m ((c.tc : Thread nD τ).loc main_arg2)) (broadcastInDim S524288 ![] bcast_S_S524288 (constantI S_ 32 0#32))) (addi (m ((c.tc : Thread nD τ).loc main_arg2)) (broadcastInDim S524288 ![] bcast_S_S524288 (constantI S_ 32 4096#32))) (m ((c.tc : Thread nD τ).loc main_arg2)))) (iotaInDim S524288 32 0)) (broadcastInDim S4096 ![] bcast_S_S4096 (constantI S_ 32 524287#32))) (broadcastInDim S4096 ![] bcast_S_S4096 (constantI S_ 32 0#32))) (addi (minsi (Host.scatter scatter_S4096_S524288x1_S524288_n_0_0_1 IntOp.minsi (broadcastInDim S4096 ![] bcast_S_S4096 (constantI S_ 32 524288#32)) (broadcastInDim S524288x1 ![0] bcast_S524288_S524288x1_0 (select (cmpi .slt (m ((c.tc : Thread nD τ).loc main_arg2)) (broadcastInDim S524288 ![] bcast_S_S524288 (constantI S_ 32 0#32))) (addi (m ((c.tc : Thread nD τ).loc main_arg2)) (broadcastInDim S524288 ![] bcast_S_S524288 (constantI S_ 32 4096#32))) (m ((c.tc : Thread nD τ).loc main_arg2)))) (iotaInDim S524288 32 0)) (broadcastInDim S4096 ![] bcast_S_S4096 (constantI S_ 32 524287#32))) (broadcastInDim S4096 ![] bcast_S_S4096 (constantI S_ 32 524288#32))) (minsi (Host.scatter scatter_S4096_S524288x1_S524288_n_0_0_1 IntOp.minsi (broadcastInDim S4096 ![] bcast_S_S4096 (constantI S_ 32 524288#32)) (broadcastInDim S524288x1 ![0] bcast_S524288_S524288x1_0 (select (cmpi .slt (m ((c.tc : Thread nD τ).loc main_arg2)) (broadcastInDim S524288 ![] bcast_S_S524288 (constantI S_ 32 0#32))) (addi (m ((c.tc : Thread nD τ).loc main_arg2)) (broadcastInDim S524288 ![] bcast_S_S524288 (constantI S_ 32 4096#32))) (m ((c.tc : Thread nD τ).loc main_arg2)))) (iotaInDim S524288 32 0)) (broadcastInDim S4096 ![] bcast_S_S4096 (constantI S_ 32 524287#32))))) := by
  -- the lines run from the contents the region leaves
  unfold Pipeline.afterTail₀
  show StableHlo.after hostOps1 _ (Proc.devRef .tc main_v26) = _
  -- the label chain reads the two integer arguments only
  after_results_simp
  -- and finds both as launched
  rw [exit_arg1 m c, exit_arg2 m c]

end Cert.KernelIdeal.Gen

end
-- ==== Proof.KI.Layout.lean ====
/-
  The two layout steps of the host lines after the region, read at an index: the feature sums are kept as
  [feature, channel] and transposed to [channel, feature]; the counts are kept as [1, channel] and reshaped to
  [channel].
-/
import proofs.«421653_j48661979464237_3_alg».proof.Proof.Gen.KernelIdeal
import proofs.«421653_j48661979464237_3_alg».proof.Proof.Spec
import Idealize.ShloMosaic.Lib.Pipeline.Value
import Idealize.ShloMosaic.Lib.ValueLayout
import Idealize.ShloMosaic.Lib.ValueIdx
import Idealize.ShloMosaic.Lib.Pipeline.Kit

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The transposed feature-sum array at (c, d) is the feature sum of channel c at feature d. -/
theorem transpose_ZT (z : Vec Ideal S524288x128 .f32) (ch : Vec Ideal S524288 .i32) (c : Fin 4096) (d : Fin 128) :
    transpose S4096x128 [1, 0] (Cert.Spec.ZT z ch : Vec Ideal S128x4096 .f32) transposes_S128x4096_S4096x128_1_0 (ix2 c d)
      = Cert.Spec.zsum z ch d c.val := by
  -- the transposed matrix at (c, d) is the matrix at (d, c)
  refine (transpose_ix2_apply (Cert.Spec.ZT z ch) transposes_S128x4096_S4096x128_1_0 c d).trans ?_
  -- which the layout [feature, channel] defines as the feature sum of channel c at feature d
  rfl

/-- The reshaped count array at c is the count of channel c. -/
theorem reshape_CN (ch : Vec Ideal S524288 .i32) (c : Fin 4096) :
    shapeCast S4096 (Cert.Spec.CN ch : Vec Ideal S1x4096 .f32) shapeCasts_S1x4096_S4096 (ix1 c) = Cert.Spec.cnt ch c.val := by
  -- the row vector dropped to a vector reads, at c, the row at (0, c)
  refine (shapeCast_1a_a_apply (Cert.Spec.CN ch) shapeCasts_S1x4096_S4096 c).trans ?_
  -- which the layout [1, channel] defines as the count of channel c
  rfl

end Cert.KernelIdeal.Val

end
-- ==== Proof.KI.Value.lean ====
/-
  The idealized kernel's run with its two results named. The first result is, at (c, d), the feature sum of channel
  c at feature d divided by max(count of c, 1); the second is the label chain over the two integer arguments. Both are
  read off the run of the pipeline: the accumulators' contents after each channel block's last point, written back
  into the two arrays, then the host lines after the region.
-/
import proofs.«421653_j48661979464237_3_alg».proof.Proof.KI.Acc
import proofs.«421653_j48661979464237_3_alg».proof.Proof.KI.Final
import proofs.«421653_j48661979464237_3_alg».proof.Proof.KI.Tail
import proofs.«421653_j48661979464237_3_alg».proof.Proof.KI.Layout

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The mean per channel: feature sums over max(count, 1). -/
def zmean (z : Vec Ideal S524288x128 .f32) (ch : Vec Ideal S524288 .i32) : Vec Ideal S4096x128 .f32 :=
  Host.divf (fun j : S4096x128.Idx => Cert.Spec.zsum z ch (j 1) (j 0).val)
    (broadcastInDim S4096x128 ![0, 1] bcast_S4096x1_S4096x128_0_1 (broadcastInDim S4096x1 ![0] bcast_S4096_S4096x1_0
      (maximumf (fun j : S4096.Idx => Cert.Spec.cnt ch (j 0).val)
        (broadcastInDim S4096 ![] bcast_S_S4096 (constant (F := Ideal) S_ .f32 0x3F800000#32)))))

/-- The label of each channel's first row: the host chain over the labels `y` and the ids `ch`. -/
def ylab (y : Vec Ideal S524288 .i32) (ch : Vec Ideal S524288 .i32) : Vec Ideal S4096 .i32 :=
  Host.gather gather_S524288_S4096x1_S4096_n_0_n_n_0_1_1 (y) (broadcastInDim S4096x1 ![0] bcast_S4096_S4096x1_0 (select (cmpi .slt (minsi (Host.scatter scatter_S4096_S524288x1_S524288_n_0_0_1 IntOp.minsi (broadcastInDim S4096 ![] bcast_S_S4096 (constantI S_ 32 524288#32)) (broadcastInDim S524288x1 ![0] bcast_S524288_S524288x1_0 (select (cmpi .slt (ch) (broadcastInDim S524288 ![] bcast_S_S524288 (constantI S_ 32 0#32))) (addi (ch) (broadcastInDim S524288 ![] bcast_S_S524288 (constantI S_ 32 4096#32))) (ch))) (iotaInDim S524288 32 0)) (broadcastInDim S4096 ![] bcast_S_S4096 (constantI S_ 32 524287#32))) (broadcastInDim S4096 ![] bcast_S_S4096 (constantI S_ 32 0#32))) (addi (minsi (Host.scatter scatter_S4096_S524288x1_S524288_n_0_0_1 IntOp.minsi (broadcastInDim S4096 ![] bcast_S_S4096 (constantI S_ 32 524288#32)) (broadcastInDim S524288x1 ![0] bcast_S524288_S524288x1_0 (select (cmpi .slt (ch) (broadcastInDim S524288 ![] bcast_S_S524288 (constantI S_ 32 0#32))) (addi (ch) (broadcastInDim S524288 ![] bcast_S_S524288 (constantI S_ 32 4096#32))) (ch))) (iotaInDim S524288 32 0)) (broadcastInDim S4096 ![] bcast_S_S4096 (constantI S_ 32 524287#32))) (broadcastInDim S4096 ![] bcast_S_S4096 (constantI S_ 32 524288#32))) (minsi (Host.scatter scatter_S4096_S524288x1_S524288_n_0_0_1 IntOp.minsi (broadcastInDim S4096 ![] bcast_S_S4096 (constantI S_ 32 524288#32)) (broadcastInDim S524288x1 ![0] bcast_S524288_S524288x1_0 (select (cmpi .slt (ch) (broadcastInDim S524288 ![] bcast_S_S524288 (constantI S_ 32 0#32))) (addi (ch) (broadcastInDim S524288 ![] bcast_S_S524288 (constantI S_ 32 4096#32))) (ch))) (iotaInDim S524288 32 0)) (broadcastInDim S4096 ![] bcast_S_S4096 (constantI S_ 32 524287#32)))))

/-- The transposed feature-sum array is the feature sums by (channel, feature). -/
theorem transpose_ZT_eq (z : Vec Ideal S524288x128 .f32) (ch : Vec Ideal S524288 .i32) :
    transpose S4096x128 [1, 0] (Cert.Spec.ZT z ch : Vec Ideal S128x4096 .f32) transposes_S128x4096_S4096x128_1_0
      = fun j : S4096x128.Idx => Cert.Spec.zsum z ch (j 1) (j 0).val := by
  funext j
  obtain ⟨cc, d, rfl⟩ : ∃ (cc : Fin 4096) (d : Fin 128), j = ix2 cc d := ⟨j 0, j 1, eq_ix2 j⟩
  exact transpose_ZT z ch cc d
/-- The reshaped count array is the counts by channel. -/
theorem reshape_CN_eq (ch : Vec Ideal S524288 .i32) :
    shapeCast S4096 (Cert.Spec.CN ch : Vec Ideal S1x4096 .f32) shapeCasts_S1x4096_S4096
      = fun j : S4096.Idx => Cert.Spec.cnt ch (j 0).val := by
  funext j
  obtain ⟨cc, rfl⟩ : ∃ cc : Fin 4096, j = ix1 cc := ⟨j 0, eq_ix1 j⟩
  exact reshape_CN ch cc

/-- The run: both results in closed form, the three arguments unchanged. -/
theorem run : θ_run defs (onTc (τ := τ) (main (F := Ideal))) ⟨m, fun _ => 0, ρ⟩ fun r => ∀ c : Dev nD,
      r.2.mem ((c.tc : Thread nD τ).loc main_v8) = zmean (m ((c.tc : Thread nD τ).loc main_arg0)) (m ((c.tc : Thread nD τ).loc main_arg2))
      ∧ r.2.mem ((c.tc : Thread nD τ).loc main_v26) = ylab (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v8 (Pipeline.mem_restRefs_of main_v8 (by decide) (by decide))).trans (tail_v8 m c)).trans (by
        rw [final2 m c (last2 m c), final3 m c (last3 m c), transpose_ZT_eq, reshape_CN_eq]; rfl),
      (((h c).2 main_v26 (Pipeline.mem_restRefs_of main_v26 (by decide) (by decide))).trans (tail_v26 m c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main (F := Ideal) m ρ)

end Cert.KernelIdeal.Val

end
-- ==== Proof.Bridge.lean ====
/-
  The reference's two scatter-adds read at an index, over the extended reals. Row b adds z[b, :] to row ch[b] of a
  zero [4096, 128] array when 0 <= ch[b] < 4096 (read signed) and adds nothing otherwise; so entry (c, d) is the sum
  of z[b, d] over the rows whose id is c, which for finite z is the sum of z[b, d] * oh(ch[b], c). The count is the
  same with ones for z.
-/
import proofs.«421653_j48661979464237_3_alg».proof.Proof.Gen.ReferenceIdeal
import proofs.«421653_j48661979464237_3_alg».proof.Proof.Spec
import Idealize.ShloMosaic.Lib.ValueIdx
import Idealize.ShloMosaic.Lib.Pipeline.Value
import Idealize.ShloMosaic.Lib.IdealHost

noncomputable section

open scoped BigOperators

namespace Cert.ReferenceIdeal.Bridge

open Cert.ReferenceIdeal Cert.ReferenceIdeal.Gen Idealize.ShloMosaic Idealize.ShloMosaic.ValueIdx

/-! ## Where an update lands

`ScatterDims.resultIdx?` adds, on every operand axis, the start (the scatter index read signed, not clamped) and the
window coordinate, and keeps the sum when it is inside the operand. First the general reading of "lands at `i`", then
the two records' starts and window coordinates axis by axis. -/

/-- A signed 32-bit word whose value is a number below 4096 is that number's word. -/
private theorem toInt_eq_iff (w : BitVec 32) (c : Nat) (hc : c < 4096) : w.toInt = (c : Int) ↔ w = BitVec.ofNat 32 c := by
  have h : (BitVec.ofNat 32 c).toInt = (c : Int) := by
    rw [BitVec.toInt_eq_toNat_cond, BitVec.toNat_ofNat]
    have : c % 2 ^ 32 = c := Nat.mod_eq_of_lt (by omega)
    rw [this]
    split <;> omega
  rw [← h]
  exact BitVec.toInt_inj

/-- An update index lands at `i` exactly when on every axis its start plus its window coordinate is `i`'s coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hh
      have := congrFun (Option.some.inj h) a
      have h2 := congrArg Fin.val this
      simp only at h2
      have := hh a
      omega
    · exact absurd h (by simp)
  · intro h
    have hh : ∀ a, 0 ≤ d.start j idx a + (d.window j a : Int) ∧ d.start j idx a + (d.window j a : Int) < s.size a := by
      intro a
      have := (i a).isLt
      rw [h a]
      omega
    rw [dif_pos hh]
    congr 1
    funext a
    refine Fin.ext ?_
    simp only
    rw [h a]
    rfl

/-- Feature scatter, axis 0: the start is row `b`'s id, read signed. -/
private theorem z_start0 (ch : IVec S524288 32) (b : Fin 524288) (d' : Fin 128) :
    scatter_S4096x128_S524288x1_S524288x128_1_0_0_1.start (ix2 b d')
      (broadcastInDim S524288x1 ![0] bcast_S524288_S524288x1_0 ch) 0 = (ch (ix1 b)).toInt := by
  unfold ScatterDims.start
  rw [dif_pos (show (0 : Fin S4096x128.rank) ∈ scatter_S4096x128_S524288x1_S524288x128_1_0_0_1.scatterDimsToOperandDims from
    List.mem_singleton.mpr rfl)]
  congr 1
  refine broadcastInDim_apply _ _ ch _ (ix1 b) ?_
  intro a
  match a with
  | ⟨0, _⟩ => rfl

/-- Feature scatter, axis 1: no start. -/
private theorem z_start1 (ch : IVec S524288 32) (j : S524288x128.Idx) :
    scatter_S4096x128_S524288x1_S524288x128_1_0_0_1.start j
      (broadcastInDim S524288x1 ![0] bcast_S524288_S524288x1_0 ch) 1 = 0 := by
  unfold ScatterDims.start
  rw [dif_neg (show ¬ (1 : Fin S4096x128.rank) ∈ scatter_S4096x128_S524288x1_S524288x128_1_0_0_1.scatterDimsToOperandDims by decide)]

/-- Feature scatter, axis 0 is inserted: no window coordinate. -/
private theorem z_window0 (j : S524288x128.Idx) :
    scatter_S4096x128_S524288x1_S524288x128_1_0_0_1.window j 0 = 0 := by
  unfold ScatterDims.window
  rw [dif_neg (show ¬ (0 : Fin S4096x128.rank) ∈ scatter_S4096x128_S524288x1_S524288x128_1_0_0_1.sKept by decide)]

/-- Feature scatter, axis 1: the window coordinate is the update's feature. -/
private theorem z_window1 (b : Fin 524288) (d' : Fin 128) :
    scatter_S4096x128_S524288x1_S524288x128_1_0_0_1.window (ix2 b d') 1 = d'.val := by
  unfold ScatterDims.window
  rw [dif_pos (show (1 : Fin S4096x128.rank) ∈ scatter_S4096x128_S524288x1_S524288x128_1_0_0_1.sKept by decide)]
  rfl

/-- Count scatter, its one axis: the start is row `b`'s id, read signed. -/
private theorem c_start0 (ch : IVec S524288 32) (b : Fin 524288) :
    scatter_S4096_S524288x1_S524288_n_0_0_1.start (ix1 b)
      (broadcastInDim S524288x1 ![0] bcast_S524288_S524288x1_0 ch) 0 = (ch (ix1 b)).toInt := by
  unfold ScatterDims.start
  rw [dif_pos (show (0 : Fin S4096.rank) ∈ scatter_S4096_S524288x1_S524288_n_0_0_1.scatterDimsToOperandDims from
    List.mem_singleton.mpr rfl)]
  congr 1
  refine broadcastInDim_apply _ _ ch _ (ix1 b) ?_
  intro a
  match a with
  | ⟨0, _⟩ => rfl

/-- Count scatter: its one axis is inserted, no window coordinate. -/
private theorem c_window0 (j : S524288.Idx) :
    scatter_S4096_S524288x1_S524288_n_0_0_1.window j 0 = 0 := by
  unfold ScatterDims.window
  rw [dif_neg (show ¬ (0 : Fin S4096.rank) ∈ scatter_S4096_S524288x1_S524288_n_0_0_1.sKept by decide)]

/-- Feature scatter: update (b, d') lands at (c, d) exactly when row `b`'s id is the word of `c` and d' = d. -/
private theorem z_lands (ch : IVec S524288 32) (b : Fin 524288) (d' d : Fin 128) (c : Fin 4096) :
    scatter_S4096x128_S524288x1_S524288x128_1_0_0_1.resultIdx? (ix2 b d')
        (broadcastInDim S524288x1 ![0] bcast_S524288_S524288x1_0 ch) = some (ix2 c d)
      ↔ ch (ix1 b) = BitVec.ofNat 32 c.val ∧ d' = d := by
  refine Iff.trans (resultIdx?_eq_some_iff _ _ _ _) (Iff.trans Fin.forall_fin_two ?_)
  rw [z_start0, z_window0, z_start1, z_window1]
  show (ch (ix1 b)).toInt + ((0 : ℕ) : ℤ) = (c.val : ℤ) ∧ (0 : ℤ) + (d'.val : ℤ) = (d.val : ℤ) ↔ _
  constructor
  · rintro ⟨h0, h1⟩
    exact ⟨(toInt_eq_iff _ _ c.isLt).1 (by omega), Fin.ext (by omega)⟩
  · rintro ⟨h0, h1⟩
    have := (toInt_eq_iff _ _ c.isLt).2 h0
    subst h1
    exact ⟨by omega, by omega⟩

/-- Count scatter: update `b` lands at `c` exactly when row `b`'s id is the word of `c`. -/
private theorem c_lands (ch : IVec S524288 32) (b : Fin 524288) (c : Fin 4096) :
    scatter_S4096_S524288x1_S524288_n_0_0_1.resultIdx? (ix1 b)
        (broadcastInDim S524288x1 ![0] bcast_S524288_S524288x1_0 ch) = some (ix1 c)
      ↔ ch (ix1 b) = BitVec.ofNat 32 c.val := by
  refine Iff.trans (resultIdx?_eq_some_iff _ _ _ _) (Iff.trans Fin.forall_fin_one ?_)
  rw [c_start0, c_window0]
  show (ch (ix1 b)).toInt + ((0 : ℕ) : ℤ) = (c.val : ℤ) ↔ _
  rw [← toInt_eq_iff _ _ c.isLt]
  constructor <;> intro h <;> omega

/-- A rank-1 index set is its coordinate range, so a sum over it is the sum over the coordinate. -/
private theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The ideal scatter-add read at an index: the operand there plus, over all update indices, the update where it lands
    there. -/
private theorem hostScatterAdd_apply {s si su : Shape} (d : ScatterDims s si su) {w : Nat} (x : FVec Ideal s .f32)
    (idx : IVec si w) (upd : FVec Ideal su .f32) (i : s.Idx) :
    Host.scatterAdd (F := Ideal) d x idx upd i = x i + ∑ j, if d.resultIdx? j idx = some i then upd j else 0 := by
  unfold Host.scatterAdd
  rw [Ideal.hostScatterAdd_def]
  unfold Ideal.hostScatterAdd
  rw [Finset.sum_filter]

/-- The feature scatter-add at (c, d). -/
theorem scatter_z (z : FVec Ideal S524288x128 .f32) (ch : IVec S524288 32) (hz : ∀ j, ∃ r : ℝ, z j = (r : EReal))
    (c : Fin 4096) (d : Fin 128) :
    Host.scatterAdd (F := Ideal) scatter_S4096x128_S524288x1_S524288x128_1_0_0_1
        (broadcastInDim S4096x128 ![] bcast_S_S4096x128 (constant (F := Ideal) S_ .f32 0x00000000#32))
        (broadcastInDim S524288x1 ![0] bcast_S524288_S524288x1_0 ch) z (ix2 c d)
      = Cert.Spec.zsum z ch d c.val := by
  -- the operand is zero; the sum over the update indices (b, d') is the double sum over b and d'
  rw [hostScatterAdd_apply, broadcastInDim_scalar_apply, constant_apply, Ideal.ofBits_zero_f32, zero_add, sum_idx2,
    Cert.Spec.zsum]
  refine Finset.sum_congr rfl fun b _ => ?_
  rw [Cert.Spec.oh]
  by_cases hw : ch (ix1 b) = BitVec.ofNat 32 c.val
  · -- row b is of channel c: of its 128 updates only the one at feature d lands at (c, d)
    rw [if_pos hw, mul_one, Finset.sum_eq_single d]
    · exact if_pos ((z_lands ch b d d c).2 ⟨hw, rfl⟩)
    · intro d' _ hne
      exact if_neg (fun h => hne ((z_lands ch b d' d c).1 h).2)
    · intro h
      exact absurd (Finset.mem_univ d) h
  · -- row b is of another channel, or of none: none of its updates lands in row c
    rw [if_neg hw, mul_zero]
    exact Finset.sum_eq_zero fun d' _ => if_neg (fun h => hw ((z_lands ch b d' d c).1 h).1)

/-- The count scatter-add at c. -/
theorem scatter_cnt (ch : IVec S524288 32) (c : Fin 4096) :
    Host.scatterAdd (F := Ideal) scatter_S4096_S524288x1_S524288_n_0_0_1
        (broadcastInDim S4096 ![] bcast_S_S4096 (constant (F := Ideal) S_ .f32 0x00000000#32))
        (broadcastInDim S524288x1 ![0] bcast_S524288_S524288x1_0 ch)
        (broadcastInDim S524288 ![] bcast_S_S524288 (constant (F := Ideal) S_ .f32 0x3F800000#32)) (ix1 c)
      = Cert.Spec.cnt ch c.val := by
  -- the operand is zero; every update is the constant one
  rw [hostScatterAdd_apply, broadcastInDim_scalar_apply, constant_apply, Ideal.ofBits_zero_f32, zero_add, sum_idx1,
    Cert.Spec.cnt]
  refine Finset.sum_congr rfl fun b _ => ?_
  rw [broadcastInDim_scalar_apply, constant_apply, Ideal.ofBits_one_f32, Cert.Spec.oh]
  by_cases hw : ch (ix1 b) = BitVec.ofNat 32 c.val
  · rw [if_pos hw]
    exact if_pos ((c_lands ch b c).2 hw)
  · rw [if_neg hw]
    exact if_neg (fun h => hw ((c_lands ch b c).1 h))

end Cert.ReferenceIdeal.Bridge

end
-- ==== Proof.RefValue.lean ====
/-
  The idealized reference's two results in the kernel side's closed forms. Its first result is the feature
  scatter-add divided by max(count scatter-add, 1); entry by entry the two scatter-adds are the feature sums and the
  counts, for finite z, so the result is the mean per channel. Its second result is the same host chain over the
  labels and the ids as the kernel program's.
-/
import proofs.«421653_j48661979464237_3_alg».proof.Proof.Gen.ReferenceIdeal.Run
import proofs.«421653_j48661979464237_3_alg».proof.Proof.Bridge
import proofs.«421653_j48661979464237_3_alg».proof.Proof.KI.Value

set_option maxRecDepth 16384

noncomputable section

namespace Cert.ReferenceIdeal.RefValue

open Cert.ReferenceIdeal Cert.ReferenceIdeal.Gen Idealize.ShloMosaic Idealize.ShloMosaic.TcCoe Idealize.ShloMosaic.ValueIdx Idealize.SL.Sem

/-- The reference's first result is the mean per channel. -/
theorem result_z (z : FVec Ideal S524288x128 .f32) (ch : IVec S524288 32) (hz : ∀ j, ∃ r : ℝ, z j = (r : EReal)) :
    (Host.divf (Host.scatterAdd scatter_S4096x128_S524288x1_S524288x128_1_0_0_1 (broadcastInDim S4096x128 ![] bcast_S_S4096x128 (constant S_ .f32 0x00000000#32)) (broadcastInDim S524288x1 ![0] bcast_S524288_S524288x1_0 (ch)) (z)) (broadcastInDim S4096x128 ![0, 1] bcast_S4096x1_S4096x128_0_1 (broadcastInDim S4096x1 ![0] bcast_S4096_S4096x1_0 (maximumf (Host.scatterAdd scatter_S4096_S524288x1_S524288_n_0_0_1 (broadcastInDim S4096 ![] bcast_S_S4096 (constant S_ .f32 0x00000000#32)) (broadcastInDim S524288x1 ![0] bcast_S524288_S524288x1_0 (ch)) (broadcastInDim S524288 ![] bcast_S_S524288 (constant S_ .f32 0x3F800000#32))) (broadcastInDim S4096 ![] bcast_S_S4096 (constant S_ .f32 0x3F800000#32))))) : FVec Ideal S4096x128 .f32)
      = Cert.KernelIdeal.Val.zmean z ch := by
  have e1 : Host.scatterAdd (F := Ideal) scatter_S4096x128_S524288x1_S524288x128_1_0_0_1 (broadcastInDim S4096x128 ![] bcast_S_S4096x128 (constant (F := Ideal) S_ .f32 0x00000000#32)) (broadcastInDim S524288x1 ![0] bcast_S524288_S524288x1_0 ch) z
      = fun j : S4096x128.Idx => Cert.Spec.zsum z ch (j 1) (j 0).val := by
    funext j
    obtain ⟨cc, d, rfl⟩ : ∃ (cc : Fin 4096) (d : Fin 128), j = ix2 cc d := ⟨j 0, j 1, eq_ix2 j⟩
    exact Bridge.scatter_z z ch hz cc d
  have e2 : Host.scatterAdd (F := Ideal) scatter_S4096_S524288x1_S524288_n_0_0_1 (broadcastInDim S4096 ![] bcast_S_S4096 (constant (F := Ideal) S_ .f32 0x00000000#32)) (broadcastInDim S524288x1 ![0] bcast_S524288_S524288x1_0 ch) (broadcastInDim S524288 ![] bcast_S_S524288 (constant (F := Ideal) S_ .f32 0x3F800000#32))
      = fun j : S4096.Idx => Cert.Spec.cnt ch (j 0).val := by
    funext j
    obtain ⟨cc, rfl⟩ : ∃ cc : Fin 4096, j = ix1 cc := ⟨j 0, eq_ix1 j⟩
    exact Bridge.scatter_cnt ch cc
  rw [e1, e2]
  rfl

/-- The reference's second result is the kernel program's label chain. -/
theorem result_y (y : IVec S524288 32) (ch : IVec S524288 32) :
    (Host.gather gather_S524288_S4096x1_S4096_n_0_n_n_0_1_1 (y) (broadcastInDim S4096x1 ![0] bcast_S4096_S4096x1_0 (select (cmpi .slt (minsi (Host.scatter scatter_S4096_S524288x1_S524288_n_0_0_1 IntOp.minsi (broadcastInDim S4096 ![] bcast_S_S4096 (constantI S_ 32 524288#32)) (broadcastInDim S524288x1 ![0] bcast_S524288_S524288x1_0 (select (cmpi .slt (ch) (broadcastInDim S524288 ![] bcast_S_S524288 (constantI S_ 32 0#32))) (addi (ch) (broadcastInDim S524288 ![] bcast_S_S524288 (constantI S_ 32 4096#32))) (ch))) (iotaInDim S524288 32 0)) (broadcastInDim S4096 ![] bcast_S_S4096 (constantI S_ 32 524287#32))) (broadcastInDim S4096 ![] bcast_S_S4096 (constantI S_ 32 0#32))) (addi (minsi (Host.scatter scatter_S4096_S524288x1_S524288_n_0_0_1 IntOp.minsi (broadcastInDim S4096 ![] bcast_S_S4096 (constantI S_ 32 524288#32)) (broadcastInDim S524288x1 ![0] bcast_S524288_S524288x1_0 (select (cmpi .slt (ch) (broadcastInDim S524288 ![] bcast_S_S524288 (constantI S_ 32 0#32))) (addi (ch) (broadcastInDim S524288 ![] bcast_S_S524288 (constantI S_ 32 4096#32))) (ch))) (iotaInDim S524288 32 0)) (broadcastInDim S4096 ![] bcast_S_S4096 (constantI S_ 32 524287#32))) (broadcastInDim S4096 ![] bcast_S_S4096 (constantI S_ 32 524288#32))) (minsi (Host.scatter scatter_S4096_S524288x1_S524288_n_0_0_1 IntOp.minsi (broadcastInDim S4096 ![] bcast_S_S4096 (constantI S_ 32 524288#32)) (broadcastInDim S524288x1 ![0] bcast_S524288_S524288x1_0 (select (cmpi .slt (ch) (broadcastInDim S524288 ![] bcast_S_S524288 (constantI S_ 32 0#32))) (addi (ch) (broadcastInDim S524288 ![] bcast_S_S524288 (constantI S_ 32 4096#32))) (ch))) (iotaInDim S524288 32 0)) (broadcastInDim S4096 ![] bcast_S_S4096 (constantI S_ 32 524287#32))))) : IVec S4096 32)
      = Cert.KernelIdeal.Val.ylab y ch := rfl

end Cert.ReferenceIdeal.RefValue

end
-- ==== Proof.Finite.lean ====
/-
  Finiteness: under the precondition every entry of z is a real number.
-/
import proofs.«421653_j48661979464237_3_alg».proof.Defs
import proofs.«421653_j48661979464237_3_alg».proof.Proof.Gen.KernelIdeal
import proofs.«421653_j48661979464237_3_alg».proof.Proof.Gen.Pre_finite_inputs
import Idealize.ShloMosaic.Lib.ReduceAll
import Idealize.ShloMosaic.Lib.ValueIdx

noncomputable section

namespace Cert.Finite

open Idealize.ShloMosaic Idealize.ShloMosaic.TcCoe Idealize.SL.Sem

/-- The rank-0 shape has a single index. -/
local instance : Subsingleton Cert.Pre_finite_inputs.S_.Idx := ⟨fun a b => funext fun d => d.elim0⟩

/-- An extended real whose absolute value is below the value of the f32 pattern of `+∞` is a real:
    that pattern denotes `⊤`, and `max x (-x)` is `⊤` at both `⊥` and `⊤`. -/
private theorem real_of_abs_lt_inf (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at hx
  induction x using EReal.rec with
  | bot => simp [Ideal.cmp] at hx
  | coe r => exact ⟨r, rfl⟩
  | top => simp [Ideal.cmp] at hx

/-- Under the precondition, on every device every entry of the first argument is a real. -/
theorem finite_z (m : (ℓ : Loc Cert.KernelIdeal.nD Cert.KernelIdeal.τ Cert.KernelIdeal.sig) → Buf (Elt Ideal) ℓ)
    (h : Cert.Pre_KernelIdeal m) (c : Dev Cert.KernelIdeal.nD) :
    ∀ j, ∃ r : ℝ, m ((c.tc : Thread Cert.KernelIdeal.nD Cert.KernelIdeal.τ).loc Cert.KernelIdeal.main_arg0) j = (r : EReal) := by
  intro j
  -- the precondition at this device: the conjunction over all entries of `|z| < +∞` is 1
  have h0 := congrFun (h c) ValueIdx.ix0
  dsimp only [Cert.Pre_finite_inputs.fn] at h0
  -- so the comparison is 1 at the entry `j`, and there it reads `max (z j) (-(z j)) < ⊤`
  have h1 := Host.reduce_andi_all _ _ _ _ _ h0 j
  exact real_of_abs_lt_inf _ h1

end Cert.Finite

end
-- ==== Proof.lean ====
/-
  The certificate. The kernel computes, per channel, the sum of the feature rows of that channel and their count by
  one-hot matrix products accumulated over a 2 x 64 grid (two blocks of 2048 channels, 64 blocks of 8192 rows, each
  in eight chunks of 1024 rows), and divides on the host; the reference computes the same two sums by scatter-adds.
  Over the extended reals, for finite z, both are the sum over the rows b with ch[b] = c of z[b, d] and the number of
  such rows: a row whose id is outside [0, 4096) matches no one-hot column and lands in no scatter row. The label of
  each channel's first row is computed by the same host operations in both programs.

    frame_Kernel, frame_KernelIdeal: the body's run at every grid point (the reset at the first row block, the eight
      chunks by the loop's invariant), the accumulators carried from point to point, the launch of the pipeline; the
      same text at both float instances.
    frame_ReferenceIdeal: the host program's run.
    preserves: the idealization rewrote nothing.
    algebraic: the kernel's run with both results named (the accumulated blocks summed over chunks and row blocks,
      written back, transposed, reshaped and divided), the reference's run with both results named, and the two
      scatter-adds read at an index.
-/
import proofs.«421653_j48661979464237_3_alg».proof.Defs
import proofs.«421653_j48661979464237_3_alg».proof.Proof.Gen.Kernel
import proofs.«421653_j48661979464237_3_alg».proof.Proof.Gen.KernelIdeal
import proofs.«421653_j48661979464237_3_alg».proof.Proof.Gen.ReferenceIdeal
import proofs.«421653_j48661979464237_3_alg».proof.Proof.Gen.ReferenceIdeal.Run
import proofs.«421653_j48661979464237_3_alg».proof.Proof.Gen.Pre_finite_inputs
import proofs.«421653_j48661979464237_3_alg».proof.Proof.K.Frame
import proofs.«421653_j48661979464237_3_alg».proof.Proof.KI.Frame
import proofs.«421653_j48661979464237_3_alg».proof.Proof.KI.Value
import proofs.«421653_j48661979464237_3_alg».proof.Proof.RefValue
import proofs.«421653_j48661979464237_3_alg».proof.Proof.Finite
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the mean per channel and the first-row labels of the same arguments. -/
theorem algebraic : Cert.algebraic_KernelIdeal_ReferenceIdeal := by
  intro m ρ m' ρ' hpre hagree
  refine ⟨fun c => Cert.KernelIdeal.Val.zmean (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.KernelIdeal.Val.ylab (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2]
    exact Cert.ReferenceIdeal.RefValue.result_z _ _ (Cert.Finite.finite_z m hpre c)
  · rw [(hagree c).2.1, (hagree c).2.2]
    exact Cert.ReferenceIdeal.RefValue.result_y _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
